-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x1024 : Shape := ⟨2, ![16384, 1024]⟩
abbrev S16384x6 : Shape := ⟨2, ![16384, 6]⟩
abbrev S1030x1536 : Shape := ⟨2, ![1030, 1536]⟩
abbrev S512x1536 : Shape := ⟨2, ![512, 1536]⟩
abbrev S1536 : Shape := ⟨1, ![1536]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x1024 : S_.BroadcastsInDim S16384x1024 (![] : Fin 0 → Fin S16384x1024.rank)
  reducesTo_S16384x1024_S_d0_1 : S16384x1024.ReducesTo [0, 1] S_
  bcast_S_S16384x6 : S_.BroadcastsInDim S16384x6 (![] : Fin 0 → Fin S16384x6.rank)
  reducesTo_S16384x6_S_d0_1 : S16384x6.ReducesTo [0, 1] S_
  bcast_S_S1030x1536 : S_.BroadcastsInDim S1030x1536 (![] : Fin 0 → Fin S1030x1536.rank)
  reducesTo_S1030x1536_S_d0_1 : S1030x1536.ReducesTo [0, 1] S_
  bcast_S_S512x1536 : S_.BroadcastsInDim S512x1536 (![] : Fin 0 → Fin S512x1536.rank)
  reducesTo_S512x1536_S_d0_1 : S512x1536.ReducesTo [0, 1] S_
  bcast_S_S1536 : S_.BroadcastsInDim S1536 (![] : Fin 0 → Fin S1536.rank)
  reducesTo_S1536_S_d0 : S1536.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  main_v73

def fn_part3 {F : FTy → Type} [FloatOps F] (main_arg11 : FVec F S512 .f32) (main_arg12 : FVec F S512 .f32) (main_arg13 : FVec F S512x1024 .f32) (main_arg14 : FVec F S1024 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x1024 .f32 := Host.absf main_arg13
  let main_cst_24 : FVec F S_ .f32 := constant S_ .f32 0x7F800000#32
  let main_v65 : FVec F S512x1024 .f32 := broadcastInDim S512x1024 ![] bcast_S_S512x1024 main_cst_24
  let main_v66 : IVec S512x1024 1 := cmpf .olt main_v64 main_v65
  let main_c_25 : IVec S_ 1 := constantI S_ 1 1#1
  let main_v67 : IVec S_ 1 := (fun x v => Host.reduce IntOp.andi x v reducesTo_S512x1024_S_d0_1 h_S_) main_v66 main_c_25
  fn_part4 (F := F) main_arg14 main_v63 main_v67

def fn_part2 {F : FTy → Type} [FloatOps F] (main_arg7 : FVec F S1536 .f32) (main_arg8 : FVec F S1536 .f32) (main_arg9 : FVec F S1536 .f32) (main_arg10 : FVec F S1024x512 .f32) (main_arg11 : FVec F S512 .f32) (main_arg12 : FVec F S512 .f32) (main_arg13 : FVec F S512x1024 .f32) (main_arg14 : FVec F S1024 .f32) (main_v33 : IVec S_ 1) : IVec S_ 1 :=
  let main_v34 : FVec F S1536 .f32 := Host.absf main_arg7
  let main_cst_12 : FVec F S_ .f32 := constant S_ .f32 0x7F800000#32
  let main_v35 : FVec F S1536 .f32 := broadcastInDim S1536 ![] bcast_S_S1536 main_cst_12
  let main_v36 : IVec S1536 1 := cmpf .olt main_v34 main_v35
  let main_c_13 : IVec S_ 1 := constantI S_ 1 1#1
  let main_v37 : IVec S_ 1 := (fun x v => Host.reduce IntOp.andi x v reducesTo_S1536_S_d0 h_S_) main_v36 main_c_13
  let main_v38 : IVec S_ 1 := andi main_v33 main_v37
  let main_v39 : FVec F S1536 .f32 := Host.absf main_arg8
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S1536 .f32 := Host.absf main_arg9
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_v48 main_v49 main_v50

def fn_part1 {F : FTy → Type} [FloatOps F] (main_arg4 : FVec F S1030x1536 .f32) (main_arg5 : FVec F S512x1536 .f32) (main_arg6 : FVec F S1536 .f32) (main_arg7 : FVec F S1536 .f32) (main_arg8 : FVec F S1536 .f32) (main_arg9 : FVec F S1536 .f32) (main_arg10 : FVec F S1024x512 .f32) (main_arg11 : FVec F S512 .f32) (main_arg12 : FVec F S512 .f32) (main_arg13 : FVec F S512x1024 .f32) (main_arg14 : FVec F S1024 .f32) (main_v13 : IVec S_ 1) (main_v16 : IVec S16384x512 1) : IVec S_ 1 :=
  let main_c_5 : IVec S_ 1 := constantI S_ 1 1#1
  let main_v17 : IVec S_ 1 := (fun x v => Host.reduce IntOp.andi x v reducesTo_S16384x512_S_d0_1 h_S_) main_v16 main_c_5
  let main_v18 : IVec S_ 1 := andi main_v13 main_v17
  let main_v19 : FVec F S1030x1536 .f32 := Host.absf main_arg4
  let main_cst_6 : FVec F S_ .f32 := constant S_ .f32 0x7F800000#32
  let main_v20 : FVec F S1030x1536 .f32 := broadcastInDim S1030x1536 ![] bcast_S_S1030x1536 main_cst_6
  let main_v21 : IVec S1030x1536 1 := cmpf .olt main_v19 main_v20
  let main_c_7 : IVec S_ 1 := constantI S_ 1 1#1
  let main_v22 : IVec S_ 1 := (fun x v => Host.reduce IntOp.andi x v reducesTo_S1030x1536_S_d0_1 h_S_) main_v21 main_c_7
  let main_v23 : IVec S_ 1 := andi main_v18 main_v22
  let main_v24 : FVec F S512x1536 .f32 := Host.absf main_arg5
  let main_cst_8 : FVec F S_ .f32 := constant S_ .f32 0x7F800000#32
  let main_v25 : FVec F S512x1536 .f32 := broadcastInDim S512x1536 ![] bcast_S_S512x1536 main_cst_8
  let main_v26 : IVec S512x1536 1 := cmpf .olt main_v24 main_v25
  let main_c_9 : IVec S_ 1 := constantI S_ 1 1#1
  let main_v27 : IVec S_ 1 := (fun x v => Host.reduce IntOp.andi x v reducesTo_S512x1536_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S16384x512 .f32) (main_arg1 : FVec F S16384x1024 .f32) (main_arg2 : FVec F S16384x6 .f32) (main_arg3 : FVec F S16384x512 .f32) (main_arg4 : FVec F S1030x1536 .f32) (main_arg5 : FVec F S512x1536 .f32) (main_arg6 : FVec F S1536 .f32) (main_arg7 : FVec F S1536 .f32) (main_arg8 : FVec F S1536 .f32) (main_arg9 : FVec F S1536 .f32) (main_arg10 : FVec F S1024x512 .f32) (main_arg11 : FVec F S512 .f32) (main_arg12 : FVec F S512 .f32) (main_arg13 : FVec F S512x1024 .f32) (main_arg14 : FVec F S1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x6 .f32 := Host.absf main_arg2
  let main_cst_2 : FVec F S_ .f32 := constant S_ .f32 0x7F800000#32
  let main_v10 : FVec F S16384x6 .f32 := broadcastInDim S16384x6 ![] bcast_S_S16384x6 main_cst_2
  let main_v11 : IVec S16384x6 1 := cmpf .olt main_v9 main_v10
  let main_c_3 : IVec S_ 1 := constantI S_ 1 1#1
  let main_v12 : IVec S_ 1 := (fun x v => Host.reduce IntOp.andi x v reducesTo_S16384x6_S_d0_1 h_S_) main_v11 main_c_3
  let main_v13 : IVec S_ 1 := andi main_v8 main_v12
  let main_v14 : FVec F S16384x512 .f32 := Host.absf main_arg3
  let main_cst_4 : FVec F S_ .f32 := constant S_ .f32 0x7F800000#32
  let main_v15 : FVec F S16384x512 .f32 := broadcastInDim S16384x512 ![] bcast_S_S16384x512 main_cst_4
  let main_v16 : IVec S16384x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S16384x512 : Shape := ⟨2, ![16384, 512]⟩
abbrev S16384x1024 : Shape := ⟨2, ![16384, 1024]⟩
abbrev S16384x6 : Shape := ⟨2, ![16384, 6]⟩
abbrev S1030x1536 : Shape := ⟨2, ![1030, 1536]⟩
abbrev S512x1536 : Shape := ⟨2, ![512, 1536]⟩
abbrev S1536 : Shape := ⟨1, ![1536]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S1024x1536 : Shape := ⟨2, ![1024, 1536]⟩
abbrev S6x1536 : Shape := ⟨2, ![6, 1536]⟩
abbrev S1x1536 : Shape := ⟨2, ![1, 1536]⟩
abbrev S1x512 : Shape := ⟨2, ![1, 512]⟩
abbrev S1x1024 : Shape := ⟨2, ![1, 1024]⟩
abbrev S512x512 : Shape := ⟨2, ![512, 512]⟩
abbrev S512x6 : Shape := ⟨2, ![512, 6]⟩
abbrev S512x1 : Shape := ⟨2, ![512, 1]⟩
abbrev S16384x32x32 : Shape := ⟨3, ![16384, 32, 32]⟩

abbrev nBuf : Space → Nat
  | .hbm => 32
  | .vmem => 24
  | .smem => 0
  | _ => 0

abbrev bufTy : (tb : Table) → Fin (tcTables nBuf tb) → BufTy
  | .hbm, ⟨0, _⟩ => ⟨S16384x512, .f32⟩
  | .hbm, ⟨1, _⟩ => ⟨S16384x1024, .f32⟩
  | .hbm, ⟨2, _⟩ => ⟨S16384x6, .f32⟩
  | .hbm, ⟨3, _⟩ => ⟨S16384x512, .f32⟩
  | .hbm, ⟨4, _⟩ => ⟨S1030x1536, .f32⟩
  | .hbm, ⟨5, _⟩ => ⟨S512x1536, .f32⟩
  | .hbm, ⟨6, _⟩ => ⟨S1536, .f32⟩
  | .hbm, ⟨7, _⟩ => ⟨S1536, .f32⟩
  | .hbm, ⟨8, _⟩ => ⟨S1536, .f32⟩
  | .hbm, ⟨9, _⟩ => ⟨S1536, .f32⟩
  | .hbm, ⟨10, _⟩ => ⟨S1024x512, .f32⟩
  | .hbm, ⟨11, _⟩ => ⟨S512, .f32⟩
  | .hbm, ⟨12, _⟩ => ⟨S512, .f32⟩
  | .hbm, ⟨13, _⟩ => ⟨S512x1024, .f32⟩
  | .hbm, ⟨14, _⟩ => ⟨S1024, .f32⟩
  | .hbm, ⟨15, _⟩ => ⟨S1024x1536, .f32⟩
  | .hbm, ⟨16, _⟩ => ⟨S1024x1536, .bf16⟩
  | .hbm, ⟨17, _⟩ => ⟨S6x1536, .f32⟩
  | .hbm, ⟨18, _⟩ => ⟨S6x1536, .bf16⟩
  | .hbm, ⟨19, _⟩ => ⟨S512x1536, .bf16⟩
  | .hbm, ⟨20, _⟩ => ⟨S1024x512, .bf16⟩
  | .hbm, ⟨21, _⟩ => ⟨S512x1024, .bf16⟩
  | .hbm, ⟨22, _⟩ => ⟨S1x1536, .f32⟩
  | .hbm, ⟨23, _⟩ => ⟨S1x1536, .f32⟩
  | .hbm, ⟨24, _⟩ => ⟨S1x1536, .f32⟩
  | .hbm, ⟨25, _⟩ => ⟨S1x1536, .f32⟩
  | .hbm, ⟨26, _⟩ => ⟨S1x512, .f32⟩
  | .hbm, ⟨27, _⟩ => ⟨S1x512, .f32⟩
  | .hbm, ⟨28, _⟩ => ⟨S1x1024, .f32⟩
  | .hbm, ⟨29, _⟩ => ⟨S16384x512, .f32⟩
  | .hbm, ⟨30, _⟩ => ⟨S16384x1024, .f32⟩
  | .hbm, ⟨31, _⟩ => ⟨S16384x32x32, .f32⟩
  | .local _ .vmem, ⟨0, _⟩ => ⟨S512x512, .f32⟩
  | .local _ .vmem, ⟨1, _⟩ => ⟨S512x512, .f32⟩
  | .local _ .vmem, ⟨2, _⟩ => ⟨S512x1024, .f32⟩
  | .local _ .vmem, ⟨3, _⟩ => ⟨S512x1024, .f32⟩
  | .local _ .vmem, ⟨4, _⟩ => ⟨S512x6, .f32⟩
  | .local _ .vmem, ⟨5, _⟩ => ⟨S512x6, .f32⟩
  | .local _ .vmem, ⟨6, _⟩ => ⟨S512x512, .f32⟩
  | .local _ .vmem, ⟨7, _⟩ => ⟨S512x512, .f32⟩
  | .local _ .vmem, ⟨8, _⟩ => ⟨S1024x1536, .bf16⟩
  | .local _ .vmem, ⟨9, _⟩ => ⟨S6x1536, .bf16⟩
  | .local _ .vmem, ⟨10, _⟩ => ⟨S512x1536, .bf16⟩
  | .local _ .vmem, ⟨11, _⟩ => ⟨S1x1536, .f32⟩
  | .local _ .vmem, ⟨12, _⟩ => ⟨S1x1536, .f32⟩
  | .local _ .vmem, ⟨13, _⟩ => ⟨S1x1536, .f32⟩
  | .local _ .vmem, ⟨14, _⟩ => ⟨S1x1536, .f32⟩
  | .local _ .vmem, ⟨15, _⟩ => ⟨S1024x512, .bf16⟩
  | .local _ .vmem, ⟨16, _⟩ => ⟨S1x512, .f32⟩
  | .local _ .vmem, ⟨17, _⟩ => ⟨S1x512, .f32⟩
  | .local _ .vmem, ⟨18, _⟩ => ⟨S512x1024, .bf16⟩
  | .local _ .vmem, ⟨19, _⟩ => ⟨S1x1024, .f32⟩
  | .local _ .vmem, ⟨20, _⟩ => ⟨S512x512, .f32⟩
  | .local _ .vmem, ⟨21, _⟩ => ⟨S512x512, .f32⟩
  | .local _ .vmem, ⟨22, _⟩ => ⟨S512x1024, .f32⟩
  | .local _ .vmem, ⟨23, _⟩ => ⟨S512x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S1030x1536_S1024x1536_0_0 : S1030x1536.Slices ![0, 0] S1024x1536
  bitsLt_bf16_f32 : FTy.bits .bf16 < FTy.bits .f32
  slices_S1030x1536_S6x1536_1024_0 : S1030x1536.Slices ![1024, 0] S6x1536
  shapeCasts_S1536_S1x1536 : S1536.ShapeCasts S1x1536
  shapeCasts_S512_S1x512 : S512.ShapeCasts S1x512
  shapeCasts_S1024_S1x1024 : S1024.ShapeCasts S1x1024
  inb_S512x512_S512x512_0_0 : ∀ a, (![0, 0] : Fin 2 → Nat) a + S512x512.size a ≤ S512x512.size a
  h_S512x512 : 0 < S512x512.numel
  inb_S512x1024_S512x1024_0_0 : ∀ a, (![0, 0] : Fin 2 → Nat) a + S512x1024.size a ≤ S512x1024.size a
  h_S512x1024 : 0 < S512x1024.numel
  inb_S512x6_S512x6_0_0 : ∀ a, (![0, 0] : Fin 2 → Nat) a + S512x6.size a ≤ S512x6.size a
  h_S512x6 : 0 < S512x6.numel
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S6x1536_S6x1536_0_0 : ∀ a, (![0, 0] : Fin 2 → Nat) a + S6x1536.size a ≤ S6x1536.size a
  h_S6x1536 : 0 < S6x1536.numel
  shapeCasts_S6x1536_S6x1536 : S6x1536.ShapeCasts S6x1536
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  reduces_S512x1536_S512 : S512x1536.Reduces [1] S512
  shapeCasts_S512_S512x1 : S512.ShapeCasts S512x1
  broadcasts_S512x1_S512x1536 : S512x1.Broadcasts S512x1536
  broadcasts_S1x1536_S512x1536 : S1x1536.Broadcasts S512x1536
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  concatenates_S512x512_S512x512_S512x1024_d1 : Shape.Concatenates [S512x512, S512x512] S512x1024 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  reduces_S512x512_S512 : S512x512.Reduces [1] S512
  broadcasts_S512x1_S512x512 : S512x1.Broadcasts S512x512
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S16384x1024_S16384x32x32 : S16384x1024.ShapeCasts S16384x32x32
  dot_S512x1024_S1024x1536_S512x1536_1_0_0_1_n_n_wf : DotDims.WF S512x1024 S1024x1536 S512x1536 [1] [0] [0] [1] [] []
  dot_S512x6_S6x1536_S512x1536_1_0_0_1_n_n_wf : DotDims.WF S512x6 S6x1536 S512x1536 [1] [0] [0] [1] [] []
  dot_S512x512_S512x1536_S512x1536_1_0_0_1_n_n_wf : DotDims.WF S512x512 S512x1536 S512x1536 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x6.size a ≤ S16384x6.size a
  hwx0_2 : ∀ i : grid0.Coords, EltTy.bits .f32 = 32 ∨ (Rect.block (s := S16384x6) S512x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S16384x512.size a
  hwx0_3 : ∀ i : grid0.Coords, EltTy.bits .f32 = 32 ∨ (Rect.block (s := S16384x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1536.size a ≤ S1024x1536.size a
  hwx0_4 : ∀ i : grid0.Coords, EltTy.bits .bf16 = 32 ∨ (Rect.block (s := S1024x1536) S1024x1536.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1536.size a ≤ S6x1536.size a
  hwx0_5 : ∀ i : grid0.Coords, EltTy.bits .bf16 = 32 ∨ (Rect.block (s := S6x1536) S6x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x1536.size a ≤ S512x1536.size a
  hwx0_6 : ∀ i : grid0.Coords, EltTy.bits .bf16 = 32 ∨ (Rect.block (s := S512x1536) S512x1536.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1536.size a ≤ S1x1536.size a
  hwx0_8 : ∀ i : grid0.Coords, EltTy.bits .f32 = 32 ∨ (Rect.block (s := S1x1536) S1x1536.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1536.size a ≤ S1x1536.size a
  hwx0_9 : ∀ i : grid0.Coords, EltTy.bits .f32 = 32 ∨ (Rect.block (s := S1x1536) S1x1536.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1536.size a ≤ S1x1536.size a
  hwx0_10 : ∀ i : grid0.Coords, EltTy.bits .f32 = 32 ∨ (Rect.block (s := S1x1536) S1x1536.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x512.size a ≤ S1024x512.size a
  hwx0_11 : ∀ i : grid0.Coords, EltTy.bits .bf16 = 32 ∨ (Rect.block (s := S1024x512) S1024x512.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1024.size a ≤ S512x1024.size a
  hwx0_14 : ∀ i : grid0.Coords, EltTy.bits .bf16 = 32 ∨ (Rect.block (s := S512x1024) S512x1024.size (cc0_transform_14 i) (hinb0_14 i)).WholeWords (EltTy.packing .bf16)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1024.size a ≤ S1x1024.size a
  hwx0_15 : ∀ i : grid0.Coords, EltTy.bits .f32 = 32 ∨ (Rect.block (s := S1x1024) S1x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x512.size a ≤ S16384x512.size a
  hwx0_16 : ∀ i : grid0.Coords, EltTy.bits .f32 = 32 ∨ (Rect.block (s := S16384x512) S512x512.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S512x1024.size a ≤ S16384x1024.size a
  hwx0_17 : ∀ i : grid0.Coords, EltTy.bits .f32 = 32 ∨ (Rect.block (s := S16384x1024) S512x1024.size (cc0_transform_17 i) (hinb0_17 i)).WholeWords (EltTy.packing .f32)

variable [Facts₀]

def dot_S512x1024_S1024x1536_S512x1536_1_0_0_1_n_n : DotDims S512x1024 S1024x1536 S512x1536 where
  lhsContracting := [1]
  rhsContracting := [0]
  lhsNonContracting := [0]
  rhsNonContracting := [1]
  lhsBatch := []
  rhsBatch := []
  wf := dot_S512x1024_S1024x1536_S512x1536_1_0_0_1_n_n_wf
def dot_S512x6_S6x1536_S512x1536_1_0_0_1_n_n : DotDims S512x6 S6x1536 S512x1536 where
  lhsContracting := [1]
  rhsContracting := [0]
  lhsNonContracting := [0]
  rhsNonContracting := [1]
  lhsBatch := []
  rhsBatch := []
  wf := dot_S512x6_S6x1536_S512x1536_1_0_0_1_n_n_wf
def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S6x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S512x1536.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1536.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S1x1536.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x1536.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1024x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v12) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v6) S512x1024.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S1x1024.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v14_0) S512x512.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v14_1) S512x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x1024 : Shape := ⟨2, ![16384, 1024]⟩
abbrev S16384x6 : Shape := ⟨2, ![16384, 6]⟩
abbrev S1030x1536 : Shape := ⟨2, ![1030, 1536]⟩
abbrev S512x1536 : Shape := ⟨2, ![512, 1536]⟩
abbrev S1536 : Shape := ⟨1, ![1536]⟩
abbrev S1024x512 : Shape := ⟨2, ![1024, 512]⟩
abbrev S512 : Shape := ⟨1, ![512]⟩
abbrev S512x1024 : Shape := ⟨2, ![512, 1024]⟩
abbrev S1024 : Shape := ⟨1, ![1024]⟩
abbrev S16384x1030 : Shape := ⟨2, ![16384, 1030]⟩
abbrev S16384x1536 : Shape := ⟨2, ![16384, 1536]⟩
abbrev S_ : Shape := ⟨0, ![]⟩
abbrev S16384 : Shape := ⟨1, ![16384]⟩
abbrev S16384x1 : Shape := ⟨2, ![16384, 1]⟩
abbrev S1x1536 : Shape := ⟨2, ![1, 1536]⟩
abbrev S1x512 : Shape := ⟨2, ![1, 512]⟩
abbrev S1x1024 : Shape := ⟨2, ![1, 1024]⟩
abbrev S16384x32x32 : Shape := ⟨3, ![16384, 32, 32]⟩

abbrev nBuf : Space → Nat
  | .hbm => 144
  | .vmem => 0
  | .smem => 0
  | _ => 0

abbrev hbmTy0_0 (i : Nat) : BufTy := match i % 128 with
  | 0 => ⟨S16384x512, .f32⟩
  | 1 => ⟨S16384x1024, .f32⟩
  | 2 => ⟨S16384x6, .f32⟩
  | 3 => ⟨S16384x512, .f32⟩
  | 4 => ⟨S1030x1536, .f32⟩
  | 5 => ⟨S512x1536, .f32⟩
  | 6 => ⟨S1536, .f32⟩
  | 7 => ⟨S1536, .f32⟩
  | 8 => ⟨S1536, .f32⟩
  | 9 => ⟨S1536, .f32⟩
  | 10 => ⟨S1024x512, .f32⟩
  | 11 => ⟨S512, .f32⟩
  | 12 => ⟨S512, .f32⟩
  | 13 => ⟨S512x1024, .f32⟩
  | 14 => ⟨S1024, .f32⟩
  | 15 => ⟨S16384x1030, .f32⟩
  | 16 => ⟨S16384x1536, .f32⟩
  | 17 => ⟨S_, .f32⟩
  | 18 => ⟨S16384, .f32⟩
  | 19 => ⟨S16384x1, .f32⟩
  | 20 => ⟨S_, .f32⟩
  | 21 => ⟨S16384x1, .f32⟩
  | 22 => ⟨S16384x1, .f32⟩
  | 23 => ⟨S16384x1536, .f32⟩
  | 24 => ⟨S16384x1536, .f32⟩
  | 25 => ⟨S16384x1536, .f32⟩
  | 26 => ⟨S_, .f32⟩
  | 27 => ⟨S16384, .f32⟩
  | 28 => ⟨S16384x1, .f32⟩
  | 29 => ⟨S_, .f32⟩
  | 30 => ⟨S16384x1, .f32⟩
  | 31 => ⟨S16384x1, .f32⟩
  | 32 => ⟨S16384x1536, .f32⟩
  | 33 => ⟨S16384x1536, .f32⟩
  | 34 => ⟨S_, .f32⟩
  | 35 => ⟨S16384x1, .f32⟩
  | 36 => ⟨S16384x1, .f32⟩
  | 37 => ⟨S16384x1, .f32⟩
  | 38 => ⟨S16384x1536, .f32⟩
  | 39 => ⟨S16384x1536, .f32⟩
  | 40 => ⟨S1x1536, .f32⟩
  | 41 => ⟨S16384x1536, .f32⟩
  | 42 => ⟨S16384x1536, .f32⟩
  | 43 => ⟨S1x1536, .f32⟩
  | 44 => ⟨S16384x1536, .f32⟩
  | 45 => ⟨S16384x1536, .f32⟩
  | 46 => ⟨S16384x1536, .f32⟩
  | 47 => ⟨S_, .f32⟩
  | 48 => ⟨S16384, .f32⟩
  | 49 => ⟨S16384x1, .f32⟩
  | 50 => ⟨S_, .f32⟩
  | 51 => ⟨S16384x1, .f32⟩
  | 52 => ⟨S16384x1, .f32⟩
  | 53 => ⟨S16384x1536, .f32⟩
  | 54 => ⟨S16384x1536, .f32⟩
  | 55 => ⟨S16384x1536, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1536, .f32⟩
  | 63 => ⟨S16384x1536, .f32⟩
  | 64 => ⟨S_, .f32⟩
  | 65 => ⟨S16384x1, .f32⟩
  | 66 => ⟨S16384x1, .f32⟩
  | 67 => ⟨S16384x1, .f32⟩
  | 68 => ⟨S16384x1536, .f32⟩
  | 69 => ⟨S16384x1536, .f32⟩
  | 70 => ⟨S1x1536, .f32⟩
  | 71 => ⟨S16384x1536, .f32⟩
  | 72 => ⟨S16384x1536, .f32⟩
  | 73 => ⟨S1x1536, .f32⟩
  | 74 => ⟨S16384x1536, .f32⟩
  | 75 => ⟨S16384x1536, .f32⟩
  | 76 => ⟨S16384x512, .f32⟩
  | 77 => ⟨S16384x512, .f32⟩
  | 78 => ⟨S16384x512, .f32⟩
  | 79 => ⟨S16384x512, .f32⟩
  | 80 => ⟨S16384x512, .f32⟩
  | 81 => ⟨S16384x512, .f32⟩
  | 82 => ⟨S16384x512, .f32⟩
  | 83 => ⟨S16384x512, .f32⟩
  | 84 => ⟨S16384x512, .f32⟩
  | 85 => ⟨S_, .f32⟩
  | 86 => ⟨S16384x512, .f32⟩
  | 87 => ⟨S16384x512, .f32⟩
  | 88 => ⟨S_, .f32⟩
  | 89 => ⟨S16384x512, .f32⟩
  | 90 => ⟨S16384x512, .f32⟩
  | 91 => ⟨S16384x512, .f32⟩
  | 92 => ⟨S16384x512, .f32⟩
  | 93 => ⟨S16384x512, .f32⟩
  | 94 => ⟨S_, .f32⟩
  | 95 => ⟨S16384x512, .f32⟩
  | 96 => ⟨S16384x512, .f32⟩
  | 97 => ⟨S_, .f32⟩
  | 98 => ⟨S16384x512, .f32⟩
  | 99 => ⟨S16384x512, .f32⟩
  | 100 => ⟨S16384x512, .f32⟩
  | 101 => ⟨S16384x512, .f32⟩
  | 102 => ⟨S16384x512, .f32⟩
  | 103 => ⟨S_, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S16384x1024, .f32⟩
  | 110 => ⟨S16384x512, .f32⟩
  | 111 => ⟨S1x512, .f32⟩
  | 112 => ⟨S16384x512, .f32⟩
  | 113 => ⟨S16384x512, .f32⟩
  | 114 => ⟨S16384x512, .f32⟩
  | 115 => ⟨S_, .f32⟩
  | 116 => ⟨S16384, .f32⟩
  | 117 => ⟨S16384x1, .f32⟩
  | 118 => ⟨S_, .f32⟩
  | 119 => ⟨S16384x1, .f32⟩
  | 120 => ⟨S16384x1, .f32⟩
  | 121 => ⟨S_, .f32⟩
  | 122 => ⟨S16384x1, .f32⟩
  | 123 => ⟨S16384x1, .f32⟩
  | 124 => ⟨S16384x1, .f32⟩
  | 125 => ⟨S16384x512, .f32⟩
  | 126 => ⟨S16384x512, .f32⟩
  | 127 => ⟨S1x512, .f32⟩
  | _ => ⟨S16384x512, .f32⟩

abbrev hbmTy0_1 (i : Nat) : BufTy := match i % 128 with
  | 0 => ⟨S16384x512, .f32⟩
  | 1 => ⟨S16384x512, .f32⟩
  | 2 => ⟨S16384x512, .f32⟩
  | 3 => ⟨S16384x512, .f32⟩
  | 4 => ⟨S_, .f32⟩
  | 5 => ⟨S16384x512, .f32⟩
  | 6 => ⟨S16384x512, .f32⟩
  | 7 => ⟨S_, .f32⟩
  | 8 => ⟨S16384x512, .f32⟩
  | 9 => ⟨S16384x512, .f32⟩
  | 10 => ⟨S16384x512, .f32⟩
  | 11 => ⟨S16384x1024, .f32⟩
  | 12 => ⟨S1x1024, .f32⟩
  | 13 => ⟨S16384x1024, .f32⟩
  | 14 => ⟨S16384x1024, .f32⟩
  | 15 => ⟨S16384x32x32, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_cst : Ref sig .tc := ⟨.hbm, 17, rfl⟩
abbrev main_v2 : Ref sig .tc := ⟨.hbm, 18, rfl⟩
abbrev main_v3 : Ref sig .tc := ⟨.hbm, 19, rfl⟩
abbrev main_cst_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_cst_2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_6 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_cst_10 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_cst_12 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_cst_13 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_cst_16 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call0_v0 : Ref sig .tc := ⟨.hbm, 130, rfl⟩
abbrev main_call0_v1 : Ref sig .tc := ⟨.hbm, 131, rfl⟩
abbrev main_call0_cst : Ref sig .tc := ⟨.hbm, 132, rfl⟩
abbrev main_call0_v2 : Ref sig .tc := ⟨.hbm, 133, rfl⟩
abbrev main_call0_v3 : Ref sig .tc := ⟨.hbm, 134, rfl⟩
abbrev main_call0_cst_0 : Ref sig .tc := ⟨.hbm, 135, rfl⟩
abbrev main_call0_v4 : Ref sig .tc := ⟨.hbm, 136, rfl⟩
abbrev main_call0_v5 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩

abbrev nD : Nat := 1
abbrev τ : Topo := Topo.v7x

variable {F : FTy → Type} [FloatOps F]

class Facts₀ : Prop where
  concatenates_S16384x1024_S16384x6_S16384x1030_d1 : Shape.Concatenates [S16384x1024, S16384x6] S16384x1030 1
  reducesTo_S16384x1536_S16384_d1 : S16384x1536.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x1536_0_1 : S16384x1.BroadcastsInDim S16384x1536 (![0, 1] : Fin 2 → Fin S16384x1536.rank)
  bcast_S1536_S1x1536_1 : S1536.BroadcastsInDim S1x1536 (![1] : Fin 1 → Fin S1x1536.rank)
  bcast_S1x1536_S16384x1536_0_1 : S1x1536.BroadcastsInDim S16384x1536 (![0, 1] : Fin 2 → Fin S16384x1536.rank)
  slices_S16384x1536_S16384x512_0_0 : S16384x1536.Slices ![0, 0] S16384x512
  slices_S16384x1536_S16384x512_0_512 : S16384x1536.Slices ![0, 512] S16384x512
  slices_S16384x1536_S16384x512_0_1024 : S16384x1536.Slices ![0, 1024] S16384x512
  bcast_S_S16384x512 : S_.BroadcastsInDim S16384x512 (![] : Fin 0 → Fin S16384x512.rank)
  concatenates_S16384x512_S16384x512_S16384x1024_d1 : Shape.Concatenates [S16384x512, S16384x512] S16384x1024 1
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  reducesTo_S16384x512_S16384_d1 : S16384x512.ReducesTo [1] S16384
  bcast_S16384x1_S16384x512_0_1 : S16384x1.BroadcastsInDim S16384x512 (![0, 1] : Fin 2 → Fin S16384x512.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S16384x1024_S16384x32x32 : S16384x1024.ShapeCasts S16384x32x32
  dot_S16384x1030_S1030x1536_S16384x1536_1_0_0_1_n_n_wf : DotDims.WF S16384x1030 S1030x1536 S16384x1536 [1] [0] [0] [1] [] []
  dot_S16384x512_S512x1536_S16384x1536_1_0_0_1_n_n_wf : DotDims.WF S16384x512 S512x1536 S16384x1536 [1] [0] [0] [1] [] []
  dot_S16384x1024_S1024x512_S16384x512_1_0_0_1_n_n_wf : DotDims.WF S16384x1024 S1024x512 S16384x512 [1] [0] [0] [1] [] []
  dot_S16384x512_S512x1024_S16384x1024_1_0_0_1_n_n_wf : DotDims.WF S16384x512 S512x1024 S16384x1024 [1] [0] [0] [1] [] []

variable [Facts₀]

def dot_S16384x1030_S1030x1536_S16384x1536_1_0_0_1_n_n : DotDims S16384x1030 S1030x1536 S16384x1536 where
  lhsContracting := [1]
  rhsContracting := [0]
  lhsNonContracting := [0]
  rhsNonContracting := [1]
  lhsBatch := []
  rhsBatch := []
  wf := dot_S16384x1030_S1030x1536_S16384x1536_1_0_0_1_n_n_wf
def dot_S16384x512_S512x1536_S16384x1536_1_0_0_1_n_n : DotDims S16384x512 S512x1536 S16384x1536 where
  lhsContracting := [1]
  rhsContracting := [0]
  lhsNonContracting := [0]
  rhsNonContracting := [1]
  lhsBatch := []
  rhsBatch := []
  wf := dot_S16384x512_S512x1536_S16384x1536_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.LibPlainDot.lean ====
/-
  A plain matrix product read at an index.

  For dimension numbers that contract the left operand's axis 1 with the right operand's axis 0 and have no batch
  axes, the accelerator's matmul into a zero accumulator and the host's dot_general are, at the extended reals, both
  the sum over the contracted coordinate κ of the products l (p, κ) * r (κ, q).
-/
import Idealize.ShloMosaic.PureOps.Ideal.Laws
import Idealize.ShloMosaic.Lib.ValueIdx

noncomputable section

open scoped BigOperators

namespace Idealize.ShloMosaic.PlainDot
open Idealize.ShloMosaic Idealize.ShloMosaic.ValueIdx

/-- M×K by K×N: the left operand's axis 1 contracted with the right's axis 0, no batch axes. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Axes
variable {M K N : Nat} (d : DotDims ⟨2, ![M, K]⟩ ⟨2, ![K, N]⟩ ⟨2, ![M, N]⟩) (hd : IsPlain d)
include hd

/-- A plain product contracts exactly one axis. -/
theorem contr_rank : d.contr.rank = 1 := by
  rw [d.rank_contr, hd.lc]; rfl

/-- The contracted axis has the common extent K. -/
theorem contr_size : d.contr.size ⟨0, by rw [contr_rank d hd]; exact Nat.one_pos⟩ = K := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's row coordinate is the output's row coordinate. -/
theorem lhs_axis0 (j : (⟨2, ![M, N]⟩ : Shape).Idx) (k : d.contr.Idx) : (d.lhsIdx j k 0).val = (j 0).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The left operand's column coordinate is the contracted coordinate. -/
theorem lhs_axis1 (j : (⟨2, ![M, N]⟩ : Shape).Idx) (k : d.contr.Idx) :
    (d.lhsIdx j k 1).val = (k ⟨0, by rw [contr_rank d hd]; exact Nat.one_pos⟩).val :=
  d.lhsIdx_val_of_single hd.lc j k

/-- The right operand's row coordinate is the contracted coordinate. -/
theorem rhs_axis0 (j : (⟨2, ![M, N]⟩ : Shape).Idx) (k : d.contr.Idx) :
    (d.rhsIdx j k 0).val = (k ⟨0, by rw [contr_rank d hd]; exact Nat.one_pos⟩).val :=
  d.rhsIdx_val_of_single hd.rc j k

/-- The right operand's column coordinate is the output's column coordinate. -/
theorem rhs_axis1 (j : (⟨2, ![M, N]⟩ : Shape).Idx) (k : d.contr.Idx) : (d.rhsIdx j k 1).val = (j 1).val := by
  obtain ⟨lc, rc, ln, rn, lb, rb, wf⟩ := d
  obtain ⟨h1, h2, h3, h4, h5, h6⟩ := hd
  simp only at h1 h2 h3 h4 h5 h6
  subst h1 h2 h3 h4 h5 h6
  rfl

/-- The sum over the contraction index of a plain product, re-indexed by the contracted coordinate: the operands are
    read at (p, κ) and (κ, q). -/
theorem sum_contr_plain {φ₁ φ₂ : FTy} (l : FVec Ideal ⟨2, ![M, K]⟩ φ₁) (r : FVec Ideal ⟨2, ![K, N]⟩ φ₂)
    (p : Fin M) (q : Fin N) :
    ∑ k : d.contr.Idx, l (d.lhsIdx (ix2 p q) k) * r (d.rhsIdx (ix2 p q) k) = ∑ κ : Fin K, l (ix2 p κ) * r (ix2 κ q) := by
  refine (Equiv.sum_comp (contrEquiv1 d K (contr_rank d hd) (contr_size d hd)).symm _).symm.trans ?_
  refine Finset.sum_congr rfl fun κ _ => ?_
  have hl : d.lhsIdx (ix2 p q) ((contrEquiv1 d K (contr_rank d hd) (contr_size d hd)).symm κ) = ix2 p κ := by
    funext a
    match a with
    | ⟨0, _⟩ => exact Fin.ext (lhs_axis0 d hd _ _)
    | ⟨1, _⟩ => exact Fin.ext ((lhs_axis1 d hd _ _).trans (contrEquiv1_symm_val d K _ _ κ))
  have hr : d.rhsIdx (ix2 p q) ((contrEquiv1 d K (contr_rank d hd) (contr_size d hd)).symm κ) = ix2 κ q := by
    funext a
    match a with
    | ⟨0, _⟩ => exact Fin.ext ((rhs_axis0 d hd _ _).trans (contrEquiv1_symm_val d K _ _ κ))
    | ⟨1, _⟩ => exact Fin.ext (rhs_axis1 d hd _ _)
  rw [hl, hr]

end Axes

/-- The accelerator's matmul into the zero accumulator, for plain dimension numbers, at (p, q): the sum over κ of
    l (p, κ) * r (κ, q). -/
theorem matmul_zero_plain {M K N : Nat} {φ₁ φ₂ : FTy} (d : DotDims ⟨2, ![M, K]⟩ ⟨2, ![K, N]⟩ ⟨2, ![M, N]⟩) (hd : IsPlain d)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ κ : Fin K, l (ix2 p κ) * r (ix2 κ q) :=
  (Ideal.matmul_constant_zero_apply d prec l r (ix2 p q)).trans (sum_contr_plain d hd l r p q)

/-- The host's dot_general, for plain dimension numbers, at (p, q): the same sum, whatever the schedule. -/
theorem dotGeneral_plain {M K N : Nat} {φ₁ φ₂ : FTy} (d : DotDims ⟨2, ![M, K]⟩ ⟨2, ![K, N]⟩ ⟨2, ![M, N]⟩) (hd : IsPlain d)
    (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ κ : Fin K, l (ix2 p κ) * r (ix2 κ q) :=
  (Ideal.dotGeneral_apply d prec sched l r (ix2 p q)).trans (sum_contr_plain d hd l r p q)

end Idealize.ShloMosaic.PlainDot

end
-- ==== Proof.LibRows.lean ====
/-
  Rows of a block against rows of the whole array, and three readings at an index that the library states only for
  a leading unit axis: a column [a, 1] broadcast along the rows, a vector [a] cast to the column [a, 1], and the sum
  of a matrix over its columns read at a row.

  The kernel works on blocks of 512 consecutive rows: row p of the block at grid point T is row 512·T + p of the
  whole array. Every operation of the kernel's body acts on each row separately, so each intermediate value of the
  body, read at row p, is the reference's corresponding intermediate value read at row 512·T + p.
-/
import Idealize.ShloMosaic.PureOps.Ideal.Laws
import Idealize.ShloMosaic.Lib.ValueIdx
import Idealize.ShloMosaic.Lib.ValueLayout
import Idealize.ShloMosaic.Lib.Pipeline.Value
import proofs.«139835_j6562710028805_1_alg».proof.Proof.LibPlainDot

noncomputable section

open scoped BigOperators

namespace Idealize.ShloMosaic.RowsLib
open Idealize.ShloMosaic Idealize.ShloMosaic.ValueIdx

/-- Row `p` of the block of 512 rows at grid point `T` (of 32) is row `512·T + p` of the 16384 rows. -/
abbrev grow (T : ℕ) (hT : T < 32) (p : Fin 512) : Fin 16384 := ⟨512 * T + p.val, by have := p.isLt; omega⟩

/-- Row `k` of the first 1024 rows of the 1030-row weight matrix. -/
abbrev wtop (k : Fin 1024) : Fin 1030 := ⟨k.val, by have := k.isLt; omega⟩

/-- Row `k` of the last 6 rows of the 1030-row weight matrix: row `1024 + k`. -/
abbrev wbot (k : Fin 6) : Fin 1030 := ⟨1024 + k.val, by have := k.isLt; omega⟩

variable {α : Type}

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, 0)`, the vector's entry `p`. -/
theorem shapeCast_a_a1_apply {a : ℕ} (x : (⟨1, ![a]⟩ : Shape).Idx → α) (h : (⟨1, ![a]⟩ : Shape).ShapeCasts ⟨2, ![a, 1]⟩)
    (p : Fin a) : shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The sum of a matrix `[a, b]` over its columns, read at row `p`: the sum over `k` of the entries `(p, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src ?_
  funext ax
  match ax with
  | ⟨0, _⟩ => rfl
  | ⟨1, _⟩ => rfl

/-- A record of plain dimension numbers (left axis 1 against right axis 0, no batch axes) given by literals. -/
theorem isPlain_of_rfl {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) : PlainDot.IsPlain d :=
  ⟨h1, h2, h3, h4, h5, h6⟩

end Idealize.ShloMosaic.RowsLib

end
-- ==== Proof.KernelBlocks.lean ====
/-
  The launch side of the kernel, read: which rows of which argument each window's block holds at a grid point, and
  that the blocks of the two results tile their arrays.

  The grid has 32 points. At point t the four batch-indexed inputs (previous hidden state, stochastic state, action,
  embedding) and the two results are staged as the block of rows 512·t … 512·t + 511; the weights and the vectors
  are one block each, the same at every point. The weights reach the region through the host lines before it: the
  input-side weights cut into their first 1024 and last 6 rows, every weight matrix converted to bf16 (the identity
  at the extended reals), every vector reshaped to one row.
-/
import proofs.«139835_j6562710028805_1_alg».proof.Proof.Gen.KernelIdeal.Frame
import proofs.«139835_j6562710028805_1_alg».proof.Proof.LibRows
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen
open Idealize.ShloMosaic.ValueIdx Idealize.ShloMosaic.RowsLib

variable (m : (ℓ : Loc nD τ sig) → Buf (Elt Ideal) ℓ)

theorem hz : (![0, 0] : Fin 2 → Nat) = fun _ => 0 := funext fun a => by fin_cases a <;> rfl

/-- The grid has 32 points. -/
theorem lt32 (t : Fin cfg0.N) : t.val < 32 := by
  have hN : cfg0.N = 32 := N_0
  have := t.isLt
  omega

/-- The index maps, decided over the grid: the four row-blocked inputs and the two outputs sit at block (t, 0) at
    point t; every other window is one block, at (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

/-! ## The arrays the region finds: the host lines before it, read -/

theorem V_v1 (c : Dev nD) : (V m c main_v1 : S1024x1536.Idx → Ideal .bf16)
    = truncf (F := Ideal) .bf16 (extractStridedSlice S1024x1536 ![0, 0] (m ((c : Thread nD τ).loc main_arg4)) slices_S1030x1536_S1024x1536_0_0) bitsLt_bf16_f32 := by
  show StableHlo.after hostOps0 (fun b => m (c, b)) (Proc.devRef .tc main_v1) = _
  after_results

theorem V_v3 (c : Dev nD) : (V m c main_v3 : S6x1536.Idx → Ideal .bf16)
    = truncf (F := Ideal) .bf16 (extractStridedSlice S6x1536 ![1024, 0] (m ((c : Thread nD τ).loc main_arg4)) slices_S1030x1536_S6x1536_1024_0) bitsLt_bf16_f32 := by
  show StableHlo.after hostOps0 (fun b => m (c, b)) (Proc.devRef .tc main_v3) = _
  after_results

theorem V_v4 (c : Dev nD) : (V m c main_v4 : S512x1536.Idx → Ideal .bf16)
    = truncf (F := Ideal) .bf16 (m ((c : Thread nD τ).loc main_arg5)) bitsLt_bf16_f32 := by
  show StableHlo.after hostOps0 (fun b => m (c, b)) (Proc.devRef .tc main_v4) = _
  after_results

theorem V_v5 (c : Dev nD) : (V m c main_v5 : S1024x512.Idx → Ideal .bf16)
    = truncf (F := Ideal) .bf16 (m ((c : Thread nD τ).loc main_arg10)) bitsLt_bf16_f32 := by
  show StableHlo.after hostOps0 (fun b => m (c, b)) (Proc.devRef .tc main_v5) = _
  after_results

theorem V_v6 (c : Dev nD) : (V m c main_v6 : S512x1024.Idx → Ideal .bf16)
    = truncf (F := Ideal) .bf16 (m ((c : Thread nD τ).loc main_arg13)) bitsLt_bf16_f32 := by
  show StableHlo.after hostOps0 (fun b => m (c, b)) (Proc.devRef .tc main_v6) = _
  after_results

theorem V_v7 (c : Dev nD) : (V m c main_v7 : S1x1536.Idx → Ideal .f32)
    = shapeCast S1x1536 (m ((c : Thread nD τ).loc main_arg6)) shapeCasts_S1536_S1x1536 := by
  show StableHlo.after hostOps0 (fun b => m (c, b)) (Proc.devRef .tc main_v7) = _
  after_results
  rfl

theorem V_v8 (c : Dev nD) : (V m c main_v8 : S1x1536.Idx → Ideal .f32)
    = shapeCast S1x1536 (m ((c : Thread nD τ).loc main_arg7)) shapeCasts_S1536_S1x1536 := by
  show StableHlo.after hostOps0 (fun b => m (c, b)) (Proc.devRef .tc main_v8) = _
  after_results
  rfl

theorem V_v9 (c : Dev nD) : (V m c main_v9 : S1x1536.Idx → Ideal .f32)
    = shapeCast S1x1536 (m ((c : Thread nD τ).loc main_arg8)) shapeCasts_S1536_S1x1536 := by
  show StableHlo.after hostOps0 (fun b => m (c, b)) (Proc.devRef .tc main_v9) = _
  after_results
  rfl

theorem V_v10 (c : Dev nD) : (V m c main_v10 : S1x1536.Idx → Ideal .f32)
    = shapeCast S1x1536 (m ((c : Thread nD τ).loc main_arg9)) shapeCasts_S1536_S1x1536 := by
  show StableHlo.after hostOps0 (fun b => m (c, b)) (Proc.devRef .tc main_v10) = _
  after_results
  rfl

theorem V_v11 (c : Dev nD) : (V m c main_v11 : S1x512.Idx → Ideal .f32)
    = shapeCast S1x512 (m ((c : Thread nD τ).loc main_arg11)) shapeCasts_S512_S1x512 := by
  show StableHlo.after hostOps0 (fun b => m (c, b)) (Proc.devRef .tc main_v11) = _
  after_results
  rfl

theorem V_v12 (c : Dev nD) : (V m c main_v12 : S1x512.Idx → Ideal .f32)
    = shapeCast S1x512 (m ((c : Thread nD τ).loc main_arg12)) shapeCasts_S512_S1x512 := by
  show StableHlo.after hostOps0 (fun b => m (c, b)) (Proc.devRef .tc main_v12) = _
  after_results
  rfl

theorem V_v13 (c : Dev nD) : (V m c main_v13 : S1x1024.Idx → Ideal .f32)
    = shapeCast S1x1024 (m ((c : Thread nD τ).loc main_arg14)) shapeCasts_S1024_S1x1024 := by
  show StableHlo.after hostOps0 (fun b => m (c, b)) (Proc.devRef .tc main_v13) = _
  after_results
  rfl

/-! ## Each window's block at a point, read at an entry -/

/-- Window 0 (the previous hidden state): row `p` of the block at point `t` is row `512·t + p` of the array. -/
theorem blk0 (c : Dev nD) (t : Fin cfg0.N) (p q : Fin 512) :
    (iblk m c 0 t : Vec Ideal S512x512 .f32) (ix2 p q)
      = (m ((c : Thread nD τ).loc main_arg0) : S16384x512.Idx → Ideal .f32) (ix2 (grow t.val (lt32 t) p) q) := by
  obtain ⟨⟨e0, e1⟩, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [e0]; omega
  | ⟨1, _⟩ => show win0_0.index t 1 * 512 + 1 * q.val = q.val; rw [e1]; omega

/-- Window 1 (the stochastic state). -/
theorem blk1 (c : Dev nD) (t : Fin cfg0.N) (p : Fin 512) (q : Fin 1024) :
    (iblk m c 1 t : Vec Ideal S512x1024 .f32) (ix2 p q)
      = (m ((c : Thread nD τ).loc main_arg1) : S16384x1024.Idx → Ideal .f32) (ix2 (grow t.val (lt32 t) p) q) := by
  obtain ⟨-, ⟨e0, e1⟩, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * p.val = 512 * t.val + p.val; rw [e0]; omega
  | ⟨1, _⟩ => show win0_1.index t 1 * 1024 + 1 * q.val = q.val; rw [e1]; omega

/-- Window 2 (the action). -/
theorem blk2 (c : Dev nD) (t : Fin cfg0.N) (p : Fin 512) (q : Fin 6) :
    (iblk m c 2 t : Vec Ideal S512x6 .f32) (ix2 p q)
      = (m ((c : Thread nD τ).loc main_arg2) : S16384x6.Idx → Ideal .f32) (ix2 (grow t.val (lt32 t) p) q) := by
  obtain ⟨-, -, ⟨e0, e1⟩, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * p.val = 512 * t.val + p.val; rw [e0]; omega
  | ⟨1, _⟩ => show win0_2.index t 1 * 6 + 1 * q.val = q.val; rw [e1]; omega

/-- Window 3 (the embedding). -/
theorem blk3 (c : Dev nD) (t : Fin cfg0.N) (p q : Fin 512) :
    (iblk m c 3 t : Vec Ideal S512x512 .f32) (ix2 p q)
      = (m ((c : Thread nD τ).loc main_arg3) : S16384x512.Idx → Ideal .f32) (ix2 (grow t.val (lt32 t) p) q) := by
  obtain ⟨-, -, -, ⟨e0, e1⟩, -⟩ := idx_facts t
  unfold iblk
  rw [View.read_apply]
  show V m c main_arg3 _ = m (c.tc.loc main_arg3) _
  rw [V_main_arg3]
  congr 1
  funext a
  apply Fin.ext
  match a with
  | ⟨0, _⟩ => show win0_3.index t 0 * 512 + 1 * p.val = 512 * t.val + p.val; rw [e0]; omega
  | ⟨1, _⟩ => show win0_3.index t 1 * 512 + 1 * q.val = q.val; rw [e1]; omega

/-- Window 4: the first 1024 rows of the input-side weights. -/
theorem blk4 (c : Dev nD) (t : Fin cfg0.N) (k : Fin 1024) (n : Fin 1536) :
    (iblk m c 4 t : Vec Ideal S1024x1536 .bf16) (ix2 k n)
      = (m ((c : Thread nD τ).loc main_arg4) : S1030x1536.Idx → Ideal .f32) (ix2 (wtop k) n) := by
  obtain ⟨-, -, -, -, ⟨e0, e1⟩, -⟩ := idx_facts t
  unfold iblk
  rw [View.read_apply]
  show V m c main_v1 _ = _
  rw [V_v1]
  show extractStridedSlice S1024x1536 ![0, 0] (m ((c : Thread nD τ).loc main_arg4)) slices_S1030x1536_S1024x1536_0_0 _ = _
  refine extractStridedSlice_apply _ _ _ _ (ix2 (wtop k) n) fun a => ?_
  match a with
  | ⟨0, _⟩ => show k.val = 0 + (win0_4.index t 0 * 1024 + 1 * k.val); rw [e0]; omega
  | ⟨1, _⟩ => show n.val = 0 + (win0_4.index t 1 * 1536 + 1 * n.val); rw [e1]; omega

/-- Window 5: the last 6 rows of the input-side weights. -/
theorem blk5 (c : Dev nD) (t : Fin cfg0.N) (k : Fin 6) (n : Fin 1536) :
    (iblk m c 5 t : Vec Ideal S6x1536 .bf16) (ix2 k n)
      = (m ((c : Thread nD τ).loc main_arg4) : S1030x1536.Idx → Ideal .f32) (ix2 (wbot k) n) := by
  obtain ⟨-, -, -, -, -, ⟨e0, e1⟩, -⟩ := idx_facts t
  unfold iblk
  rw [View.read_apply]
  show V m c main_v3 _ = _
  rw [V_v3]
  show extractStridedSlice S6x1536 ![1024, 0] (m ((c : Thread nD τ).loc main_arg4)) slices_S1030x1536_S6x1536_1024_0 _ = _
  refine extractStridedSlice_apply _ _ _ _ (ix2 (wbot k) n) fun a => ?_
  match a with
  | ⟨0, _⟩ => show 1024 + k.val = 1024 + (win0_5.index t 0 * 6 + 1 * k.val); rw [e0]; omega
  | ⟨1, _⟩ => show n.val = 0 + (win0_5.index t 1 * 1536 + 1 * n.val); rw [e1]; omega

/-- Window 6: the hidden-side weights, whole. -/
theorem blk6 (c : Dev nD) (t : Fin cfg0.N) (k : Fin 512) (n : Fin 1536) :
    (iblk m c 6 t : Vec Ideal S512x1536 .bf16) (ix2 k n)
      = (m ((c : Thread nD τ).loc main_arg5) : S512x1536.Idx → Ideal .f32) (ix2 k n) := by
  obtain ⟨-, -, -, -, -, -, ⟨e0, e1⟩, -⟩ := idx_facts t
  unfold iblk
  rw [View.read_apply]
  show V m c main_v4 _ = _
  rw [V_v4]
  show (m ((c : Thread nD τ).loc main_arg5) : S512x1536.Idx → Ideal .f32) _ = _
  congr 1
  funext a
  apply Fin.ext
  match a with
  | ⟨0, _⟩ => show win0_6.index t 0 * 512 + 1 * k.val = k.val; rw [e0]; omega
  | ⟨1, _⟩ => show win0_6.index t 1 * 1536 + 1 * n.val = n.val; rw [e1]; omega

/-- Windows 7 to 10: the gain and bias vectors of the two normalizations, as one-row blocks. -/
theorem blk7 (c : Dev nD) (t : Fin cfg0.N) (n : Fin 1536) :
    (iblk m c 7 t : Vec Ideal S1x1536 .f32) (ix2 (0 : Fin 1) n)
      = (m ((c : Thread nD τ).loc main_arg6) : S1536.Idx → Ideal .f32) (ix1 n) := by
  obtain ⟨-, -, -, -, -, -, -, ⟨e0, e1⟩, -⟩ := idx_facts t
  unfold iblk
  rw [View.read_apply]
  show V m c main_v7 _ = _
  rw [V_v7]
  refine shapeCast_apply _ _ _ (ix1 n) ?_
  rw [Shape.rowMajor_val_one, Shape.rowMajor_val_two]
  show n.val = (win0_7.index t 0 * 1 + 1 * 0) * 1536 + (win0_7.index t 1 * 1536 + 1 * n.val)
  rw [e0, e1]; omega

theorem blk8 (c : Dev nD) (t : Fin cfg0.N) (n : Fin 1536) :
    (iblk m c 8 t : Vec Ideal S1x1536 .f32) (ix2 (0 : Fin 1) n)
      = (m ((c : Thread nD τ).loc main_arg7) : S1536.Idx → Ideal .f32) (ix1 n) := by
  obtain ⟨-, -, -, -, -, -, -, -, ⟨e0, e1⟩, -⟩ := idx_facts t
  unfold iblk
  rw [View.read_apply]
  show V m c main_v8 _ = _
  rw [V_v8]
  refine shapeCast_apply _ _ _ (ix1 n) ?_
  rw [Shape.rowMajor_val_one, Shape.rowMajor_val_two]
  show n.val = (win0_8.index t 0 * 1 + 1 * 0) * 1536 + (win0_8.index t 1 * 1536 + 1 * n.val)
  rw [e0, e1]; omega

theorem blk9 (c : Dev nD) (t : Fin cfg0.N) (n : Fin 1536) :
    (iblk m c 9 t : Vec Ideal S1x1536 .f32) (ix2 (0 : Fin 1) n)
      = (m ((c : Thread nD τ).loc main_arg8) : S1536.Idx → Ideal .f32) (ix1 n) := by
  obtain ⟨-, -, -, -, -, -, -, -, -, ⟨e0, e1⟩, -⟩ := idx_facts t
  unfold iblk
  rw [View.read_apply]
  show V m c main_v9 _ = _
  rw [V_v9]
  refine shapeCast_apply _ _ _ (ix1 n) ?_
  rw [Shape.rowMajor_val_one, Shape.rowMajor_val_two]
  show n.val = (win0_9.index t 0 * 1 + 1 * 0) * 1536 + (win0_9.index t 1 * 1536 + 1 * n.val)
  rw [e0, e1]; omega

theorem blk10 (c : Dev nD) (t : Fin cfg0.N) (n : Fin 1536) :
    (iblk m c 10 t : Vec Ideal S1x1536 .f32) (ix2 (0 : Fin 1) n)
      = (m ((c : Thread nD τ).loc main_arg9) : S1536.Idx → Ideal .f32) (ix1 n) := by
  obtain ⟨-, -, -, -, -, -, -, -, -, -, ⟨e0, e1⟩, -⟩ := idx_facts t
  unfold iblk
  rw [View.read_apply]
  show V m c main_v10 _ = _
  rw [V_v10]
  refine shapeCast_apply _ _ _ (ix1 n) ?_
  rw [Shape.rowMajor_val_one, Shape.rowMajor_val_two]
  show n.val = (win0_10.index t 0 * 1 + 1 * 0) * 1536 + (win0_10.index t 1 * 1536 + 1 * n.val)
  rw [e0, e1]; omega

/-- Window 11: the first weights of the posterior head, whole. -/
theorem blk11 (c : Dev nD) (t : Fin cfg0.N) (k : Fin 1024) (n : Fin 512) :
    (iblk m c 11 t : Vec Ideal S1024x512 .bf16) (ix2 k n)
      = (m ((c : Thread nD τ).loc main_arg10) : S1024x512.Idx → Ideal .f32) (ix2 k n) := by
  obtain ⟨-, -, -, -, -, -, -, -, -, -, -, ⟨e0, e1⟩, -⟩ := idx_facts t
  unfold iblk
  rw [View.read_apply]
  show V m c main_v5 _ = _
  rw [V_v5]
  show (m ((c : Thread nD τ).loc main_arg10) : S1024x512.Idx → Ideal .f32) _ = _
  congr 1
  funext a
  apply Fin.ext
  match a with
  | ⟨0, _⟩ => show win0_11.index t 0 * 1024 + 1 * k.val = k.val; rw [e0]; omega
  | ⟨1, _⟩ => show win0_11.index t 1 * 512 + 1 * n.val = n.val; rw [e1]; omega

/-- Windows 12 and 13: the head's first bias and its scale vector, as one-row blocks. -/
theorem blk12 (c : Dev nD) (t : Fin cfg0.N) (n : Fin 512) :
    (iblk m c 12 t : Vec Ideal S1x512 .f32) (ix2 (0 : Fin 1) n)
      = (m ((c : Thread nD τ).loc main_arg11) : S512.Idx → Ideal .f32) (ix1 n) := by
  obtain ⟨-, -, -, -, -, -, -, -, -, -, -, -, ⟨e0, e1⟩, -⟩ := idx_facts t
  unfold iblk
  rw [View.read_apply]
  show V m c main_v11 _ = _
  rw [V_v11]
  refine shapeCast_apply _ _ _ (ix1 n) ?_
  rw [Shape.rowMajor_val_one, Shape.rowMajor_val_two]
  show n.val = (win0_12.index t 0 * 1 + 1 * 0) * 512 + (win0_12.index t 1 * 512 + 1 * n.val)
  rw [e0, e1]; omega

theorem blk13 (c : Dev nD) (t : Fin cfg0.N) (n : Fin 512) :
    (iblk m c 13 t : Vec Ideal S1x512 .f32) (ix2 (0 : Fin 1) n)
      = (m ((c : Thread nD τ).loc main_arg12) : S512.Idx → Ideal .f32) (ix1 n) := by
  obtain ⟨-, -, -, -, -, -, -, -, -, -, -, -, -, ⟨e0, e1⟩, -⟩ := idx_facts t
  unfold iblk
  rw [View.read_apply]
  show V m c main_v12 _ = _
  rw [V_v12]
  refine shapeCast_apply _ _ _ (ix1 n) ?_
  rw [Shape.rowMajor_val_one, Shape.rowMajor_val_two]
  show n.val = (win0_13.index t 0 * 1 + 1 * 0) * 512 + (win0_13.index t 1 * 512 + 1 * n.val)
  rw [e0, e1]; omega

/-- Window 14: the head's second weights, whole. -/
theorem blk14 (c : Dev nD) (t : Fin cfg0.N) (k : Fin 512) (n : Fin 1024) :
    (iblk m c 14 t : Vec Ideal S512x1024 .bf16) (ix2 k n)
      = (m ((c : Thread nD τ).loc main_arg13) : S512x1024.Idx → Ideal .f32) (ix2 k n) := by
  obtain ⟨-, -, -, -, -, -, -, -, -, -, -, -, -, -, ⟨e0, e1⟩, -⟩ := idx_facts t
  unfold iblk
  rw [View.read_apply]
  show V m c main_v6 _ = _
  rw [V_v6]
  show (m ((c : Thread nD τ).loc main_arg13) : S512x1024.Idx → Ideal .f32) _ = _
  congr 1
  funext a
  apply Fin.ext
  match a with
  | ⟨0, _⟩ => show win0_14.index t 0 * 512 + 1 * k.val = k.val; rw [e0]; omega
  | ⟨1, _⟩ => show win0_14.index t 1 * 1024 + 1 * n.val = n.val; rw [e1]; omega

/-- Window 15: the head's second bias, as a one-row block. -/
theorem blk15 (c : Dev nD) (t : Fin cfg0.N) (n : Fin 1024) :
    (iblk m c 15 t : Vec Ideal S1x1024 .f32) (ix2 (0 : Fin 1) n)
      = (m ((c : Thread nD τ).loc main_arg14) : S1024.Idx → Ideal .f32) (ix1 n) := by
  obtain ⟨-, -, -, -, -, -, -, -, -, -, -, -, -, -, -, ⟨e0, e1⟩, -⟩ := idx_facts t
  unfold iblk
  rw [View.read_apply]
  show V m c main_v13 _ = _
  rw [V_v13]
  refine shapeCast_apply _ _ _ (ix1 n) ?_
  rw [Shape.rowMajor_val_one, Shape.rowMajor_val_two]
  show n.val = (win0_15.index t 0 * 1 + 1 * 0) * 1024 + (win0_15.index t 1 * 1024 + 1 * n.val)
  rw [e0, e1]; omega

/-! ## The output blocks tile the two result arrays -/

/-- Every entry of the new hidden state's array lies in the block of the point that owns its row. -/
theorem cover16 (i : S16384x512.Idx) :
    ∃ t : Fin cfg0.N, (cfg0.win 16).flush t = true ∧ i ∈ ((cfg0.win 16).blk t).view.set := by
  have hN : cfg0.N = 32 := N_0
  have hi0 : (i 0).val < 16384 := (i 0).isLt
  have hi1 : (i 1).val < 512 := (i 1).isLt
  let t : Fin cfg0.N := ⟨(i 0).val / 512, by rw [hN]; omega⟩
  obtain ⟨-, -, -, -, -, -, -, -, -, -, -, -, -, -, -, -, ⟨e0, e1⟩, -⟩ := idx_facts t
  refine ⟨t, flush0_16 t, ?_⟩
  show i ∈ ((View.whole main_v14_0).slice (win0_16.rect t)).set
  rw [View.set_slice_whole, Rect.mem_set_unit]
  intro a
  match a with
  | ⟨0, _⟩ =>
    show win0_16.index t 0 * 512 ≤ (i 0).val ∧ (i 0).val < win0_16.index t 0 * 512 + 512
    rw [e0]; show (i 0).val / 512 * 512 ≤ (i 0).val ∧ (i 0).val < (i 0).val / 512 * 512 + 512; omega
  | ⟨1, _⟩ =>
    show win0_16.index t 1 * 512 ≤ (i 1).val ∧ (i 1).val < win0_16.index t 1 * 512 + 512
    rw [e1]; omega

/-- Every entry of the logits' array lies in the block of the point that owns its row. -/
theorem cover17 (i : S16384x1024.Idx) :
    ∃ t : Fin cfg0.N, (cfg0.win 17).flush t = true ∧ i ∈ ((cfg0.win 17).blk t).view.set := by
  have hN : cfg0.N = 32 := N_0
  have hi0 : (i 0).val < 16384 := (i 0).isLt
  have hi1 : (i 1).val < 1024 := (i 1).isLt
  let t : Fin cfg0.N := ⟨(i 0).val / 512, by rw [hN]; omega⟩
  obtain ⟨-, -, -, -, -, -, -, -, -, -, -, -, -, -, -, -, -, ⟨e0, e1⟩⟩ := idx_facts t
  refine ⟨t, flush0_17 t, ?_⟩
  show i ∈ ((View.whole main_v14_1).slice (win0_17.rect t)).set
  rw [View.set_slice_whole, Rect.mem_set_unit]
  intro a
  match a with
  | ⟨0, _⟩ =>
    show win0_17.index t 0 * 512 ≤ (i 0).val ∧ (i 0).val < win0_17.index t 0 * 512 + 512
    rw [e0]; show (i 0).val / 512 * 512 ≤ (i 0).val ∧ (i 0).val < (i 0).val / 512 * 512 + 512; omega
  | ⟨1, _⟩ =>
    show win0_17.index t 1 * 1024 ≤ (i 1).val ∧ (i 1).val < win0_17.index t 1 * 1024 + 1024
    rw [e1]; omega

/-- An entry of an output block, embedded in its array: row `512·t + (row in the block)`, the same column. -/
theorem emb16 (t : Fin cfg0.N) (y : S512x512.Idx) :
    (((cfg0.win 16).blk t).view.emb y : S16384x512.Idx) = ix2 (grow t.val (lt32 t) (y 0)) (y 1) := by
  obtain ⟨-, -, -, -, -, -, -, -, -, -, -, -, -, -, -, -, ⟨e0, e1⟩, -⟩ := idx_facts t
  funext a
  apply Fin.ext
  match a with
  | ⟨0, _⟩ => show win0_16.index t 0 * 512 + 1 * (y 0).val = 512 * t.val + (y 0).val; rw [e0]; omega
  | ⟨1, _⟩ => show win0_16.index t 1 * 512 + 1 * (y 1).val = (y 1).val; rw [e1]; omega

theorem emb17 (t : Fin cfg0.N) (y : S512x1024.Idx) :
    (((cfg0.win 17).blk t).view.emb y : S16384x1024.Idx) = ix2 (grow t.val (lt32 t) (y 0)) (y 1) := by
  obtain ⟨-, -, -, -, -, -, -, -, -, -, -, -, -, -, -, -, -, ⟨e0, e1⟩⟩ := idx_facts t
  funext a
  apply Fin.ext
  match a with
  | ⟨0, _⟩ => show win0_17.index t 0 * 512 + 1 * (y 0).val = 512 * t.val + (y 0).val; rw [e0]; omega
  | ⟨1, _⟩ => show win0_17.index t 1 * 1024 + 1 * (y 1).val = (y 1).val; rw [e1]; omega

end Cert.KernelIdeal.Blocks

end
-- ==== Proof.PayDot.lean ====
/-
  The two matrix products of the recurrent cell, read at a row.

  The kernel multiplies a block of 512 rows of the state z (1024 columns) by the first 1024 rows of W_ih and the same
  rows of the action (6 columns) by the last 6 rows of W_ih, and adds the two; the reference multiplies the rows
  [z | action] (1030 columns) by all of W_ih. At the extended reals a sum over 1030 terms is the sum over the first
  1024 plus the sum over the last 6, so the two agree row by row. The product of the previous hidden state with W_hh
  is one sum of 512 terms on both sides. The reshaped gain and bias rows, and the constant one, are read as they are.
-/
import proofs.«139835_j6562710028805_1_alg».proof.Proof.Gen.KernelIdeal.Skeleton
import proofs.«139835_j6562710028805_1_alg».proof.Proof.Gen.ReferenceIdeal.Read
import proofs.«139835_j6562710028805_1_alg».proof.Proof.LibRows

noncomputable section

open scoped BigOperators

namespace Cert.Bridge

open Idealize.ShloMosaic Idealize.ShloMosaic.ValueIdx Idealize.ShloMosaic.RowsLib
open Cert.KernelIdeal.Gen Cert.ReferenceIdeal.Read

variable (T : ℕ) (hT : T < 32)

/-- In the reference's product the right operand is read, for a contracted coordinate among the first 1024, at row
    `k` of the weight matrix and the output's column. -/
private theorem weightIndex_top (r : Fin 16384) (n : Fin 1536) (k : Fin 1024) :
    ridx_main_v1 (ix2 r n) (Fin.castAdd 6 k) = ix2 (wtop k) n :=
  funext fun a => Fin.ext (by match a with | ⟨0, _⟩ => rfl | ⟨1, _⟩ => rfl)

/-- For a contracted coordinate among the last 6 the right operand is read at row `1024 + k`. -/
private theorem weightIndex_bot (r : Fin 16384) (n : Fin 1536) (k : Fin 6) :
    ridx_main_v1 (ix2 r n) (Fin.natAdd 1024 k) = ix2 (wbot k) n :=
  funext fun a => Fin.ext (by match a with | ⟨0, _⟩ => rfl | ⟨1, _⟩ => rfl)

/-- The joined rows `[z | action]` read at a column among the first 1024: the entry of `z`. -/
private theorem joinedRow_left (X1 : FVec Ideal ⟨2, ![16384, 1024]⟩ .f32) (X2 : FVec Ideal ⟨2, ![16384, 6]⟩ .f32)
    (r : Fin 16384) (n : Fin 1536) (k : Fin 1024) :
    val_main_v0 (F := Ideal) X1 X2 (lidx_main_v1 (ix2 r n) (Fin.castAdd 6 k)) = X1 (ix2 r k) := by
  unfold val_main_v0
  exact concatenate_pair_apply_left (t := ⟨2, ![16384, 1030]⟩) (s₁ := ⟨2, ![16384, 1024]⟩) (s₂ := ⟨2, ![16384, 6]⟩) (1 : Fin 2) X1 X2 _
    (lidx_main_v1 (ix2 r n) (Fin.castAdd 6 k)) rfl (ix2 r k)
    (fun b => by match b with | ⟨0, _⟩ => rfl | ⟨1, _⟩ => rfl)

/-- The joined rows `[z | action]` read at column `1024 + k`: the entry `k` of the action. -/
private theorem joinedRow_right (X1 : FVec Ideal ⟨2, ![16384, 1024]⟩ .f32) (X2 : FVec Ideal ⟨2, ![16384, 6]⟩ .f32)
    (r : Fin 16384) (n : Fin 1536) (k : Fin 6) :
    val_main_v0 (F := Ideal) X1 X2 (lidx_main_v1 (ix2 r n) (Fin.natAdd 1024 k)) = X2 (ix2 r k) := by
  unfold val_main_v0
  exact concatenate_pair_apply_right (t := ⟨2, ![16384, 1030]⟩) (s₁ := ⟨2, ![16384, 1024]⟩) (s₂ := ⟨2, ![16384, 6]⟩) (1 : Fin 2) X1 X2 _
    (lidx_main_v1 (ix2 r n) (Fin.natAdd 1024 k)) rfl rfl (ix2 r k)
    (fun b hb => by match b with | ⟨0, _⟩ => rfl | ⟨1, _⟩ => exact absurd rfl hb)
    (by show k.val + 1024 = 1024 + k.val; omega)

/-- The reference's product `[z | action]·W_ih` at row `r`, column `n`: the sum of 1030 terms is the sum over the
    first 1024 contracted coordinates (entries of `z` against the top rows of `W_ih`) plus the sum over the last 6
    (entries of the action against the bottom rows). -/
private theorem reference_product_split (X1 : FVec Ideal ⟨2, ![16384, 1024]⟩ .f32) (X2 : FVec Ideal ⟨2, ![16384, 6]⟩ .f32)
    (X4 : FVec Ideal ⟨2, ![1030, 1536]⟩ .f32) (r : Fin 16384) (n : Fin 1536) :
    val_main_v1 (F := Ideal) X1 X2 X4 (ix2 r n)
      = (∑ k : Fin 1024, X1 (ix2 r k) * X4 (ix2 (wtop k) n)) + ∑ k : Fin 6, X2 (ix2 r k) * X4 (ix2 (wbot k) n) := by
  rw [val_main_v1_apply]
  refine (Fin.sum_univ_add (a := 1024) (b := 6)
    (fun k => val_main_v0 (F := Ideal) X1 X2 (lidx_main_v1 (ix2 r n) k) * X4 (ridx_main_v1 (ix2 r n) k))).trans ?_
  refine congrArg₂ (· + ·) (Finset.sum_congr rfl fun k _ => ?_) (Finset.sum_congr rfl fun k _ => ?_)
  · show val_main_v0 (F := Ideal) X1 X2 (lidx_main_v1 (ix2 r n) (Fin.castAdd 6 k)) * X4 (ridx_main_v1 (ix2 r n) (Fin.castAdd 6 k))
      = X1 (ix2 r k) * X4 (ix2 (wtop k) n)
    rw [joinedRow_left, weightIndex_top]
  · show val_main_v0 (F := Ideal) X1 X2 (lidx_main_v1 (ix2 r n) (Fin.natAdd 1024 k)) * X4 (ridx_main_v1 (ix2 r n) (Fin.natAdd 1024 k))
      = X2 (ix2 r k) * X4 (ix2 (wbot k) n)
    rw [joinedRow_right, weightIndex_bot]

/-- The kernel's two products at block row `p`, column `n`: the narrowing to bf16 and the reshaping of a matrix to its
    own shape change nothing, and each product into the zero accumulator is the sum over its contracted coordinate. -/
private theorem kernel_products (x1 : FVec Ideal ⟨2, ![512, 1024]⟩ .f32) (x2 : FVec Ideal ⟨2, ![512, 6]⟩ .f32)
    (w4 : FVec Ideal ⟨2, ![1024, 1536]⟩ .bf16) (w5 : FVec Ideal ⟨2, ![6, 1536]⟩ .bf16) (p : Fin 512) (n : Fin 1536) :
    k0_pay1 (F := Ideal) x1 x2 w4 w5 (ix2 p n)
      = (∑ k : Fin 1024, x1 (ix2 p k) * w4 (ix2 k n)) + ∑ k : Fin 6, x2 (ix2 p k) * w5 (ix2 k n) := by
  unfold k0_pay1
  simp only [shapeCast_self]
  exact congrArg₂ (· + ·)
    (PlainDot.matmul_zero_plain Cert.KernelIdeal.dot_S512x1024_S1024x1536_S512x1536_1_0_0_1_n_n
      (isPlain_of_rfl _ rfl rfl rfl rfl rfl rfl) none _ _ p n)
    (PlainDot.matmul_zero_plain Cert.KernelIdeal.dot_S512x6_S6x1536_S512x1536_1_0_0_1_n_n
      (isPlain_of_rfl _ rfl rfl rfl rfl rfl rfl) none _ _ p n)

/-- `z·W_ih[:1024] + action·W_ih[1024:]` at block row `p` is `[z | action]·W_ih` at row `512·T + p`. -/
theorem pay1_row (X1 : FVec Ideal ⟨2, ![16384, 1024]⟩ .f32) (X2 : FVec Ideal ⟨2, ![16384, 6]⟩ .f32) (X4 : FVec Ideal ⟨2, ![1030, 1536]⟩ .f32)
    (x1 : FVec Ideal ⟨2, ![512, 1024]⟩ .f32) (x2 : FVec Ideal ⟨2, ![512, 6]⟩ .f32) (w4 : FVec Ideal ⟨2, ![1024, 1536]⟩ .bf16) (w5 : FVec Ideal ⟨2, ![6, 1536]⟩ .bf16)
    (h1 : ∀ (p : Fin 512) (k : Fin 1024), x1 (ix2 p k) = X1 (ix2 (grow T hT p) k))
    (h2 : ∀ (p : Fin 512) (k : Fin 6), x2 (ix2 p k) = X2 (ix2 (grow T hT p) k))
    (h4 : ∀ (k : Fin 1024) (n : Fin 1536), w4 (ix2 k n) = X4 (ix2 (wtop k) n))
    (h5 : ∀ (k : Fin 6) (n : Fin 1536), w5 (ix2 k n) = X4 (ix2 (wbot k) n))
    (p : Fin 512) (n : Fin 1536) :
    k0_pay1 (F := Ideal) x1 x2 w4 w5 (ix2 p n) = val_main_v1 (F := Ideal) X1 X2 X4 (ix2 (grow T hT p) n) := by
  rw [reference_product_split, kernel_products]
  refine congrArg₂ (· + ·) (Finset.sum_congr rfl fun k _ => ?_) (Finset.sum_congr rfl fun k _ => ?_)
  · rw [h1, h4]
  · rw [h2, h5]

/-- `h·W_hh` at block row `p` is the reference's product at row `512·T + p`. -/
theorem pay2_row (X0 : FVec Ideal ⟨2, ![16384, 512]⟩ .f32) (X5 : FVec Ideal ⟨2, ![512, 1536]⟩ .f32)
    (x0 : FVec Ideal ⟨2, ![512, 512]⟩ .f32) (w6 : FVec Ideal ⟨2, ![512, 1536]⟩ .bf16)
    (h0 : ∀ (p : Fin 512) (k : Fin 512), x0 (ix2 p k) = X0 (ix2 (grow T hT p) k))
    (h6 : ∀ (k : Fin 512) (n : Fin 1536), w6 (ix2 k n) = X5 (ix2 k n))
    (p : Fin 512) (n : Fin 1536) :
    k0_pay2 (F := Ideal) x0 w6 (ix2 p n) = val_main_v26 (F := Ideal) X0 X5 (ix2 (grow T hT p) n) := by
  rw [val_main_v26_apply]
  unfold k0_pay2
  simp only [shapeCast_self]
  refine (PlainDot.matmul_zero_plain Cert.KernelIdeal.dot_S512x512_S512x1536_S512x1536_1_0_0_1_n_n
    (isPlain_of_rfl _ rfl rfl rfl rfl rfl rfl) none _ _ p n).trans ?_
  refine Finset.sum_congr rfl fun k _ => ?_
  -- the reference reads its left operand at (512·T + p, k) and its right operand at (k, n)
  have el : lidx_main_v26 (ix2 (grow T hT p) n) k = ix2 (grow T hT p) k :=
    funext fun a => Fin.ext (by match a with | ⟨0, _⟩ => rfl | ⟨1, _⟩ => rfl)
  have er : ridx_main_v26 (ix2 (grow T hT p) n) k = ix2 k n :=
    funext fun a => Fin.ext (by match a with | ⟨0, _⟩ => rfl | ⟨1, _⟩ => rfl)
  rw [el, er]
  show x0 (ix2 p k) * w6 (ix2 k n) = X0 (ix2 (grow T hT p) k) * X5 (ix2 k n)
  rw [h0, h6]

/-- The gain row of the first normalization, loaded as a 1×1536 block, is the gain vector. -/
theorem pay3_row (X6 : FVec Ideal ⟨1, ![1536]⟩ .f32) (x7 : FVec Ideal ⟨2, ![1, 1536]⟩ .f32)
    (h7 : ∀ n : Fin 1536, x7 (ix2 (0 : Fin 1) n) = X6 (ix1 n)) (n : Fin 1536) :
    k0_pay3 (F := Ideal) x7 (ix2 (0 : Fin 1) n) = X6 (ix1 n) := by
  unfold k0_pay3
  simp only [shapeCast_self]
  exact h7 n

/-- The bias row of the first normalization, loaded as a 1×1536 block, is the bias vector. -/
theorem pay4_row (X7 : FVec Ideal ⟨1, ![1536]⟩ .f32) (x8 : FVec Ideal ⟨2, ![1, 1536]⟩ .f32)
    (h8 : ∀ n : Fin 1536, x8 (ix2 (0 : Fin 1) n) = X7 (ix1 n)) (n : Fin 1536) :
    k0_pay4 (F := Ideal) x8 (ix2 (0 : Fin 1) n) = X7 (ix1 n) := by
  unfold k0_pay4
  simp only [shapeCast_self]
  exact h8 n

/-- The kernel's constant one is the reference's constant one, everywhere. -/
theorem pay12_row (p q : Fin 512) :
    k0_pay12 (F := Ideal) (ix2 p q) = val_main_v74 (F := Ideal) (ix2 (grow T hT p) q) := by
  rw [val_main_v74_apply, val_main_cst_13_apply]
  rfl

end Cert.Bridge

end
-- ==== Proof.PayNormIh.lean ====
/-
  The layer normalization of the input-side pre-activation, read at a row.

  For a row x of 1536 entries the kernel and the reference both form the mean μ = (Σ x) / 1536, the variance
  σ² = (Σ (x − μ)²) / 1536 and (x − μ) · rsqrt(σ² + ε) · g + b, with the same operations in the same order: the only
  difference is that the kernel's sums run over a row of a 512-row block and the reference's over the same row of
  the 16384-row array. The kernel computes this in four named pieces (the mean, the variance, the centred row, the
  scaled and shifted row); each is matched with the reference's stage of the same meaning.
-/
import proofs.«139835_j6562710028805_1_alg».proof.Proof.Gen.KernelIdeal.Skeleton
import proofs.«139835_j6562710028805_1_alg».proof.Proof.Gen.ReferenceIdeal.Read
import proofs.«139835_j6562710028805_1_alg».proof.Proof.LibRows

noncomputable section

open scoped BigOperators

namespace Cert.Bridge

open Idealize.ShloMosaic Idealize.ShloMosaic.ValueIdx Idealize.ShloMosaic.RowsLib
open Cert.KernelIdeal.Gen Cert.ReferenceIdeal.Read

/-! ## The reference's index maps at an index given by coordinates -/

/-- The row sum's operand index at row `r` and summand `k` is `(r, k)`. -/
private theorem idx_v2_coords (r : Fin 16384) (k : Fin 1536) :
    idx_main_v2 (idx_main_v3 (ix2 r (0 : Fin 1))) k = ix2 r k :=
  funext fun a => Fin.ext (by match a with | ⟨0, _⟩ => rfl | ⟨1, _⟩ => rfl)

/-- The second row sum's operand index at row `r` and summand `k` is `(r, k)`. -/
private theorem idx_v9_coords (r : Fin 16384) (k : Fin 1536) :
    idx_main_v9 (idx_main_v10 (ix2 r (0 : Fin 1))) k = ix2 r k :=
  funext fun a => Fin.ext (by match a with | ⟨0, _⟩ => rfl | ⟨1, _⟩ => rfl)

/-- A column broadcast along the rows reads, at `(r, n)`, the column at `(r, 0)`. -/
private theorem idx_v6_coords (r : Fin 16384) (n : Fin 1536) : idx_main_v6 (ix2 r n) = ix2 r (0 : Fin 1) :=
  funext fun a => Fin.ext (by match a with | ⟨0, _⟩ => rfl | ⟨1, _⟩ => rfl)

/-- The same reading for the second broadcast of the mean column. -/
private theorem idx_v13_coords (r : Fin 16384) (n : Fin 1536) : idx_main_v13 (ix2 r n) = ix2 r (0 : Fin 1) :=
  funext fun a => Fin.ext (by match a with | ⟨0, _⟩ => rfl | ⟨1, _⟩ => rfl)

/-- The same reading for the broadcast of the rsqrt column. -/
private theorem idx_v18_coords (r : Fin 16384) (n : Fin 1536) : idx_main_v18 (ix2 r n) = ix2 r (0 : Fin 1) :=
  funext fun a => Fin.ext (by match a with | ⟨0, _⟩ => rfl | ⟨1, _⟩ => rfl)

/-- A vector of 1536 entries laid out as a row and broadcast along the rows reads, at `(r, n)`, its entry `n`. -/
private theorem idx_v20_coords (r : Fin 16384) (n : Fin 1536) : idx_main_v20 (idx_main_v21 (ix2 r n)) = ix1 n :=
  funext fun a => Fin.ext (by match a with | ⟨0, _⟩ => rfl)

/-- The same reading for the second vector of 1536 entries. -/
private theorem idx_v23_coords (r : Fin 16384) (n : Fin 1536) : idx_main_v23 (idx_main_v24 (ix2 r n)) = ix1 n :=
  funext fun a => Fin.ext (by match a with | ⟨0, _⟩ => rfl)

/-! ## The reference's stages at a row, in terms of the stage they are computed from -/

/-- The reference's row mean at row `r`: the sum of the row (from the initial value zero) divided by 1536. -/
private theorem ref_mean (X1 : FVec Ideal ⟨2, ![16384, 1024]⟩ .f32) (X2 : FVec Ideal ⟨2, ![16384, 6]⟩ .f32) (X4 : FVec Ideal ⟨2, ![1030, 1536]⟩ .f32) (r : Fin 16384) :
    val_main_v5 (F := Ideal) X1 X2 X4 (ix2 r (0 : Fin 1)) =
      Ideal.div (∑ k : Fin 1536, val_main_v1 (F := Ideal) X1 X2 X4 (ix2 r k)) (Ideal.ofBits .f32 0x44C00000#32) := by
  rw [val_main_v5_apply, val_main_v3_apply, val_main_v2_apply, val_main_v4_apply, val_main_cst_0_apply,
    val_main_cst_apply, Ideal.hostDivf_def, Ideal.ofBits_def, Ideal.ofBits_def, Ideal.ofBits_zero_f32, zero_add]
  refine congrArg (fun s => Ideal.div s _) (Finset.sum_congr rfl fun k _ => ?_)
  rw [idx_v2_coords]

/-- The reference's centred entry at `(r, n)` (the one that is squared for the variance). -/
private theorem ref_centred_sq (X1 : FVec Ideal ⟨2, ![16384, 1024]⟩ .f32) (X2 : FVec Ideal ⟨2, ![16384, 6]⟩ .f32) (X4 : FVec Ideal ⟨2, ![1030, 1536]⟩ .f32) (r : Fin 16384) (n : Fin 1536) :
    val_main_v7 (F := Ideal) X1 X2 X4 (ix2 r n) =
      val_main_v1 (F := Ideal) X1 X2 X4 (ix2 r n) - val_main_v5 (F := Ideal) X1 X2 X4 (ix2 r (0 : Fin 1)) := by
  show val_main_v1 (F := Ideal) X1 X2 X4 (ix2 r n) - val_main_v6 (F := Ideal) X1 X2 X4 (ix2 r n) = _
  rw [val_main_v6_apply, idx_v6_coords]

/-- The reference's row variance at row `r`: the sum of the squared centred entries divided by 1536. -/
private theorem ref_var (X1 : FVec Ideal ⟨2, ![16384, 1024]⟩ .f32) (X2 : FVec Ideal ⟨2, ![16384, 6]⟩ .f32) (X4 : FVec Ideal ⟨2, ![1030, 1536]⟩ .f32) (r : Fin 16384) :
    val_main_v12 (F := Ideal) X1 X2 X4 (ix2 r (0 : Fin 1)) =
      Ideal.div (∑ k : Fin 1536,
          (val_main_v1 (F := Ideal) X1 X2 X4 (ix2 r k) - val_main_v5 (F := Ideal) X1 X2 X4 (ix2 r (0 : Fin 1))) *
          (val_main_v1 (F := Ideal) X1 X2 X4 (ix2 r k) - val_main_v5 (F := Ideal) X1 X2 X4 (ix2 r (0 : Fin 1))))
        (Ideal.ofBits .f32 0x44C00000#32) := by
  rw [val_main_v12_apply, val_main_v10_apply, val_main_v9_apply, val_main_v11_apply, val_main_cst_2_apply,
    val_main_cst_1_apply, Ideal.hostDivf_def, Ideal.ofBits_def, Ideal.ofBits_def, Ideal.ofBits_zero_f32, zero_add]
  refine congrArg (fun s => Ideal.div s _) (Finset.sum_congr rfl fun k _ => ?_)
  rw [idx_v9_coords]
  show val_main_v7 (F := Ideal) X1 X2 X4 (ix2 r k) * val_main_v7 (F := Ideal) X1 X2 X4 (ix2 r k) = _
  rw [ref_centred_sq]

/-- The reference's centred entry at `(r, n)` (the one that is scaled). -/
private theorem ref_centred (X1 : FVec Ideal ⟨2, ![16384, 1024]⟩ .f32) (X2 : FVec Ideal ⟨2, ![16384, 6]⟩ .f32) (X4 : FVec Ideal ⟨2, ![1030, 1536]⟩ .f32) (r : Fin 16384) (n : Fin 1536) :
    val_main_v14 (F := Ideal) X1 X2 X4 (ix2 r n) =
      val_main_v1 (F := Ideal) X1 X2 X4 (ix2 r n) - val_main_v5 (F := Ideal) X1 X2 X4 (ix2 r (0 : Fin 1)) := by
  show val_main_v1 (F := Ideal) X1 X2 X4 (ix2 r n) - val_main_v13 (F := Ideal) X1 X2 X4 (ix2 r n) = _
  rw [val_main_v13_apply, idx_v13_coords]

/-- The reference's normalized entry at `(r, n)`: centred entry times rsqrt(variance + ε), times the gain, plus the bias. -/
private theorem ref_norm (X1 : FVec Ideal ⟨2, ![16384, 1024]⟩ .f32) (X2 : FVec Ideal ⟨2, ![16384, 6]⟩ .f32) (X4 : FVec Ideal ⟨2, ![1030, 1536]⟩ .f32) (X6 X7 : FVec Ideal ⟨1, ![1536]⟩ .f32) (r : Fin 16384) (n : Fin 1536) :
    val_main_v25 (F := Ideal) X1 X2 X4 X6 X7 (ix2 r n) =
      val_main_v14 (F := Ideal) X1 X2 X4 (ix2 r n) *
          Ideal.rsqrt (val_main_v12 (F := Ideal) X1 X2 X4 (ix2 r (0 : Fin 1)) + Ideal.ofBits .f32 0x3727C5AC#32) *
          X6 (ix1 n) + X7 (ix1 n) := by
  show val_main_v14 (F := Ideal) X1 X2 X4 (ix2 r n) * val_main_v18 (F := Ideal) X1 X2 X4 (ix2 r n) *
      val_main_v21 (F := Ideal) X6 (ix2 r n) + val_main_v24 (F := Ideal) X7 (ix2 r n) = _
  rw [val_main_v18_apply, idx_v18_coords, val_main_v21_apply, val_main_v20_apply, idx_v20_coords,
    val_main_v24_apply, val_main_v23_apply, idx_v23_coords]
  show _ * Ideal.rsqrt (val_main_v12 (F := Ideal) X1 X2 X4 (ix2 r (0 : Fin 1)) +
      val_main_v15 (F := Ideal) (ix2 r (0 : Fin 1))) * _ + _ = _
  rw [val_main_v15_apply, val_main_cst_3_apply, Ideal.ofBits_def]

/-! ## The kernel's operations on a block, read at a row -/

/-- The block's row sum, cast to a column and divided by a constant column, read at row `p`. -/
private theorem block_mean (u : FVec Ideal ⟨2, ![512, 1536]⟩ .f32) (acc : BitVec FTy.f32.bits)
    (hr : (⟨2, ![512, 1536]⟩ : Shape).Reduces [1] ⟨1, ![512]⟩) (hφ : FKind.Formats FTy.f32)
    (hacc : acc = FKind.add.neutral FTy.f32 hφ) (hc : (⟨1, ![512]⟩ : Shape).ShapeCasts ⟨2, ![512, 1]⟩)
    (c : Ideal .f32) (p : Fin 512) :
    divf (shapeCast ⟨2, ![512, 1]⟩ (multiReduction .add [1] ⟨1, ![512]⟩ u acc hr hφ hacc) hc)
        (broadcast ⟨2, ![512, 1]⟩ c) (ix2 p (0 : Fin 1)) =
      Ideal.div (∑ k : Fin 1536, u (ix2 p k)) c := by
  show Ideal.div (shapeCast ⟨2, ![512, 1]⟩ (multiReduction .add [1] ⟨1, ![512]⟩ u acc hr hφ hacc) hc (ix2 p (0 : Fin 1))) c = _
  refine congrArg (fun s => Ideal.div s c) ?_
  exact (shapeCast_a_a1_apply _ hc p).trans (rowSum_apply u acc hr hφ hacc p)

/-- A block minus a column broadcast along its rows, read at `(p, n)`. -/
private theorem block_centred (u : FVec Ideal ⟨2, ![512, 1536]⟩ .f32) (m : FVec Ideal ⟨2, ![512, 1]⟩ .f32)
    (hb : (⟨2, ![512, 1]⟩ : Shape).Broadcasts ⟨2, ![512, 1536]⟩) (p : Fin 512) (n : Fin 1536) :
    subf u (broadcastTo ⟨2, ![512, 1536]⟩ m hb) (ix2 p n) = u (ix2 p n) - m (ix2 p (0 : Fin 1)) := by
  show u (ix2 p n) - broadcastTo ⟨2, ![512, 1536]⟩ m hb (ix2 p n) = _
  exact congrArg (fun s => u (ix2 p n) - s) (broadcastTo_a1_ab_apply m hb p n)

/-- The block's normalized entry at `(p, n)`: the centred entry times rsqrt(variance + ε), times the gain, plus the bias. -/
private theorem block_norm (v18 v20 : FVec Ideal ⟨2, ![1, 1536]⟩ .f32) (v31 : FVec Ideal ⟨2, ![512, 1]⟩ .f32)
    (v33 : FVec Ideal ⟨2, ![512, 1536]⟩ .f32) (p : Fin 512) (n : Fin 1536) :
    k0_pay8 (F := Ideal) v18 v20 v31 v33 (ix2 p n) =
      v33 (ix2 p n) * Ideal.rsqrt (v31 (ix2 p (0 : Fin 1)) + Ideal.ofBits .f32 0x3727C5AC#32) * v18 (ix2 (0 : Fin 1) n) +
        v20 (ix2 (0 : Fin 1) n) := by
  unfold k0_pay8
  show v33 (ix2 p n) * broadcastTo _ (rsqrt (addf v31 (broadcast _ _))) _ (ix2 p n) * broadcastTo _ v18 _ (ix2 p n) +
      broadcastTo _ v20 _ (ix2 p n) = _
  rw [broadcastTo_a1_ab_apply, broadcastTo_1b_ab_apply, broadcastTo_1b_ab_apply]
  rfl

variable (T : ℕ) (hT : T < 32)

/-- The row mean of the block is the row mean of the array at the global row. -/
theorem pay5_row (X1 : FVec Ideal ⟨2, ![16384, 1024]⟩ .f32) (X2 : FVec Ideal ⟨2, ![16384, 6]⟩ .f32) (X4 : FVec Ideal ⟨2, ![1030, 1536]⟩ .f32)
    (x1 : FVec Ideal ⟨2, ![512, 1024]⟩ .f32) (x2 : FVec Ideal ⟨2, ![512, 6]⟩ .f32) (w4 : FVec Ideal ⟨2, ![1024, 1536]⟩ .bf16) (w5 : FVec Ideal ⟨2, ![6, 1536]⟩ .bf16)
    (h15 : ∀ (p : Fin 512) (n : Fin 1536), k0_pay1 (F := Ideal) x1 x2 w4 w5 (ix2 p n) = val_main_v1 (F := Ideal) X1 X2 X4 (ix2 (grow T hT p) n))
    (p : Fin 512) :
    k0_pay5 (F := Ideal) x1 x2 w4 w5 (ix2 p (0 : Fin 1)) = val_main_v5 (F := Ideal) X1 X2 X4 (ix2 (grow T hT p) (0 : Fin 1)) := by
  unfold k0_pay5
  generalize k0_pay1 (F := Ideal) x1 x2 w4 w5 = u at h15 ⊢
  refine (block_mean u _ _ _ _ _ _ p).trans ?_
  rw [ref_mean]
  exact congrArg (fun s => Ideal.div s _) (Finset.sum_congr rfl fun k _ => h15 p k)

/-- The row variance of the block is the row variance of the array at the global row. -/
theorem pay6_row (X1 : FVec Ideal ⟨2, ![16384, 1024]⟩ .f32) (X2 : FVec Ideal ⟨2, ![16384, 6]⟩ .f32) (X4 : FVec Ideal ⟨2, ![1030, 1536]⟩ .f32)
    (x1 : FVec Ideal ⟨2, ![512, 1024]⟩ .f32) (x2 : FVec Ideal ⟨2, ![512, 6]⟩ .f32) (w4 : FVec Ideal ⟨2, ![1024, 1536]⟩ .bf16) (w5 : FVec Ideal ⟨2, ![6, 1536]⟩ .bf16)
    (h15 : ∀ (p : Fin 512) (n : Fin 1536), k0_pay1 (F := Ideal) x1 x2 w4 w5 (ix2 p n) = val_main_v1 (F := Ideal) X1 X2 X4 (ix2 (grow T hT p) n))
    (p : Fin 512) :
    k0_pay6 (F := Ideal) x1 x2 w4 w5 (ix2 p (0 : Fin 1)) = val_main_v12 (F := Ideal) X1 X2 X4 (ix2 (grow T hT p) (0 : Fin 1)) := by
  have h24 : ∀ q : Fin 512, k0_pay5 (F := Ideal) x1 x2 w4 w5 (ix2 q (0 : Fin 1)) =
      val_main_v5 (F := Ideal) X1 X2 X4 (ix2 (grow T hT q) (0 : Fin 1)) :=
    fun q => pay5_row T hT X1 X2 X4 x1 x2 w4 w5 h15 q
  unfold k0_pay6
  generalize k0_pay5 (F := Ideal) x1 x2 w4 w5 = m at h24 ⊢
  generalize k0_pay1 (F := Ideal) x1 x2 w4 w5 = u at h15 ⊢
  refine (block_mean _ _ _ _ _ _ _ p).trans ?_
  rw [ref_var]
  refine congrArg (fun s => Ideal.div s _) (Finset.sum_congr rfl fun k _ => ?_)
  show subf u (broadcastTo _ m _) (ix2 p k) * subf u (broadcastTo _ m _) (ix2 p k) = _
  rw [block_centred, h15, h24]

/-- The centred row of the block is the centred row of the array at the global row. -/
theorem pay7_row (X1 : FVec Ideal ⟨2, ![16384, 1024]⟩ .f32) (X2 : FVec Ideal ⟨2, ![16384, 6]⟩ .f32) (X4 : FVec Ideal ⟨2, ![1030, 1536]⟩ .f32)
    (x1 : FVec Ideal ⟨2, ![512, 1024]⟩ .f32) (x2 : FVec Ideal ⟨2, ![512, 6]⟩ .f32) (w4 : FVec Ideal ⟨2, ![1024, 1536]⟩ .bf16) (w5 : FVec Ideal ⟨2, ![6, 1536]⟩ .bf16)
    (h15 : ∀ (p : Fin 512) (n : Fin 1536), k0_pay1 (F := Ideal) x1 x2 w4 w5 (ix2 p n) = val_main_v1 (F := Ideal) X1 X2 X4 (ix2 (grow T hT p) n))
    (p : Fin 512) (n : Fin 1536) :
    k0_pay7 (F := Ideal) x1 x2 w4 w5 (ix2 p n) = val_main_v14 (F := Ideal) X1 X2 X4 (ix2 (grow T hT p) n) := by
  have h24 : ∀ q : Fin 512, k0_pay5 (F := Ideal) x1 x2 w4 w5 (ix2 q (0 : Fin 1)) =
      val_main_v5 (F := Ideal) X1 X2 X4 (ix2 (grow T hT q) (0 : Fin 1)) :=
    fun q => pay5_row T hT X1 X2 X4 x1 x2 w4 w5 h15 q
  unfold k0_pay7
  generalize k0_pay5 (F := Ideal) x1 x2 w4 w5 = m at h24 ⊢
  generalize k0_pay1 (F := Ideal) x1 x2 w4 w5 = u at h15 ⊢
  refine (block_centred u m _ p n).trans ?_
  rw [ref_centred, h15, h24]

/-- The normalized, scaled and shifted row of the block is the reference's at the global row. -/
theorem pay8_row (X1 : FVec Ideal ⟨2, ![16384, 1024]⟩ .f32) (X2 : FVec Ideal ⟨2, ![16384, 6]⟩ .f32) (X4 : FVec Ideal ⟨2, ![1030, 1536]⟩ .f32) (X6 X7 : FVec Ideal ⟨1, ![1536]⟩ .f32)
    (v18 v20 : FVec Ideal ⟨2, ![1, 1536]⟩ .f32) (v31 : FVec Ideal ⟨2, ![512, 1]⟩ .f32) (v33 : FVec Ideal ⟨2, ![512, 1536]⟩ .f32)
    (h18 : ∀ n : Fin 1536, v18 (ix2 (0 : Fin 1) n) = X6 (ix1 n))
    (h20 : ∀ n : Fin 1536, v20 (ix2 (0 : Fin 1) n) = X7 (ix1 n))
    (h31 : ∀ p : Fin 512, v31 (ix2 p (0 : Fin 1)) = val_main_v12 (F := Ideal) X1 X2 X4 (ix2 (grow T hT p) (0 : Fin 1)))
    (h33 : ∀ (p : Fin 512) (n : Fin 1536), v33 (ix2 p n) = val_main_v14 (F := Ideal) X1 X2 X4 (ix2 (grow T hT p) n))
    (p : Fin 512) (n : Fin 1536) :
    k0_pay8 (F := Ideal) v18 v20 v31 v33 (ix2 p n) = val_main_v25 (F := Ideal) X1 X2 X4 X6 X7 (ix2 (grow T hT p) n) := by
  rw [block_norm, ref_norm, h18, h20, h31, h33]

end Cert.Bridge

end
-- ==== Proof.PayNormHh.lean ====
/-
  The layer normalization of the hidden-side pre-activation, read at a row.

  For a row x of 1536 entries both programs form μ = (Σ x) / 1536, σ² = (Σ (x − μ)²) / 1536 and
  (x − μ) · rsqrt(σ² + ε) · g + b with the same operations in the same order; the kernel's sums run over a row of a
  512-row block, the reference's over the same row of the whole array.
-/
import proofs.«139835_j6562710028805_1_alg».proof.Proof.Gen.KernelIdeal.Skeleton
import proofs.«139835_j6562710028805_1_alg».proof.Proof.Gen.ReferenceIdeal.Read
import proofs.«139835_j6562710028805_1_alg».proof.Proof.LibRows

noncomputable section

open scoped BigOperators

namespace Cert.Bridge

open Idealize.ShloMosaic Idealize.ShloMosaic.ValueIdx Idealize.ShloMosaic.RowsLib
open Cert.KernelIdeal.Gen Cert.ReferenceIdeal.Read

variable (T : ℕ) (hT : T < 32)

/-! ### The kernel's column "sum of a row, divided by a constant" -/

/-- The sum of each row of a block, as a column, divided entrywise by a constant column: at row `p` it is
    `(Σ_k w(p, k)) / c`. -/
private theorem rowSum_div_apply (w : FVec Ideal ⟨2, ![512, 1536]⟩ .f32) (c : Ideal .f32) (acc : BitVec FTy.f32.bits)
    (hr : (⟨2, ![512, 1536]⟩ : Shape).Reduces [1] ⟨1, ![512]⟩) (hφ : FKind.Formats .f32)
    (hacc : acc = FKind.add.neutral .f32 hφ) (hc : (⟨1, ![512]⟩ : Shape).ShapeCasts ⟨2, ![512, 1]⟩) (p : Fin 512) :
    divf (shapeCast ⟨2, ![512, 1]⟩ (multiReduction .add [1] ⟨1, ![512]⟩ w acc hr hφ hacc) hc)
        (broadcast ⟨2, ![512, 1]⟩ c) (ix2 p (0 : Fin 1))
      = Ideal.div (∑ k : Fin 1536, w (ix2 p k)) c := by
  show Ideal.div (shapeCast ⟨2, ![512, 1]⟩ (multiReduction .add [1] ⟨1, ![512]⟩ w acc hr hφ hacc) hc (ix2 p (0 : Fin 1))) c = _
  exact congrArg (Ideal.div · c) ((shapeCast_a_a1_apply _ hc p).trans (rowSum_apply w acc hr hφ hacc p))

/-! ### The reference's stages, read at a row -/

/-- The reference's row mean: `μ(r) = (Σ_k x(r, k)) / 1536`; its sum starts from the zero word. -/
private theorem ref_mean (X0 : FVec Ideal ⟨2, ![16384, 512]⟩ .f32) (X5 : FVec Ideal ⟨2, ![512, 1536]⟩ .f32) (r : Fin 16384) :
    val_main_v30 (F := Ideal) X0 X5 (ix2 r (0 : Fin 1))
      = Ideal.div (∑ k : Fin 1536, val_main_v26 (F := Ideal) X0 X5 (ix2 r k)) (Ideal.ofBits .f32 0x44C00000#32) := by
  rw [val_main_v30_apply, val_main_v28_apply, val_main_v27_apply, val_main_v29_apply, val_main_cst_5_apply,
    val_main_cst_4_apply]
  show Ideal.div (Ideal.ofBits .f32 0x00000000#32 + _) _ = _
  rw [Ideal.ofBits_zero_f32, zero_add]
  refine congrArg (Ideal.div · _) (Finset.sum_congr rfl fun k _ => congrArg _ ?_)
  exact funext fun a => Fin.ext (by match a with | ⟨0, _⟩ => rfl | ⟨1, _⟩ => rfl)

/-- The reference's row variance: `σ²(r) = (Σ_k (x(r, k) − μ(r))²) / 1536`, the square written as a product. -/
private theorem ref_var (X0 : FVec Ideal ⟨2, ![16384, 512]⟩ .f32) (X5 : FVec Ideal ⟨2, ![512, 1536]⟩ .f32) (r : Fin 16384) :
    val_main_v37 (F := Ideal) X0 X5 (ix2 r (0 : Fin 1))
      = Ideal.div (∑ k : Fin 1536,
            (val_main_v26 (F := Ideal) X0 X5 (ix2 r k) - val_main_v30 (F := Ideal) X0 X5 (ix2 r (0 : Fin 1)))
              * (val_main_v26 (F := Ideal) X0 X5 (ix2 r k) - val_main_v30 (F := Ideal) X0 X5 (ix2 r (0 : Fin 1))))
          (Ideal.ofBits .f32 0x44C00000#32) := by
  rw [val_main_v37_apply, val_main_v35_apply, val_main_v34_apply, val_main_v36_apply, val_main_cst_7_apply,
    val_main_cst_6_apply]
  show Ideal.div (Ideal.ofBits .f32 0x00000000#32 + _) _ = _
  rw [Ideal.ofBits_zero_f32, zero_add]
  refine congrArg (Ideal.div · _) (Finset.sum_congr rfl fun k _ => ?_)
  have e1 : idx_main_v34 (idx_main_v35 (ix2 r (0 : Fin 1))) k = ix2 r k :=
    funext fun a => Fin.ext (by match a with | ⟨0, _⟩ => rfl | ⟨1, _⟩ => rfl)
  have e2 : idx_main_v31 (ix2 r k) = ix2 r (0 : Fin 1) :=
    funext fun a => Fin.ext (by match a with | ⟨0, _⟩ => rfl | ⟨1, _⟩ => rfl)
  rw [e1, val_main_v33_apply, val_main_v32_apply, val_main_v31_apply, e2]
  rfl

/-- The reference's normalized row: `(x(r, n) − μ(r)) · rsqrt(σ²(r) + ε) · g(n) + b(n)`. -/
private theorem ref_norm (X0 : FVec Ideal ⟨2, ![16384, 512]⟩ .f32) (X5 : FVec Ideal ⟨2, ![512, 1536]⟩ .f32)
    (X8 X9 : FVec Ideal ⟨1, ![1536]⟩ .f32) (r : Fin 16384) (n : Fin 1536) :
    val_main_v50 (F := Ideal) X0 X5 X8 X9 (ix2 r n)
      = (val_main_v26 (F := Ideal) X0 X5 (ix2 r n) - val_main_v30 (F := Ideal) X0 X5 (ix2 r (0 : Fin 1)))
            * Ideal.rsqrt (val_main_v37 (F := Ideal) X0 X5 (ix2 r (0 : Fin 1)) + Ideal.ofBits .f32 0x3727C5AC#32)
            * X8 (ix1 n)
          + X9 (ix1 n) := by
  have e38 : idx_main_v38 (ix2 r n) = ix2 r (0 : Fin 1) :=
    funext fun a => Fin.ext (by match a with | ⟨0, _⟩ => rfl | ⟨1, _⟩ => rfl)
  have e43 : idx_main_v43 (ix2 r n) = ix2 r (0 : Fin 1) :=
    funext fun a => Fin.ext (by match a with | ⟨0, _⟩ => rfl | ⟨1, _⟩ => rfl)
  have e45 : idx_main_v45 (idx_main_v46 (ix2 r n)) = ix1 n :=
    funext fun a => Fin.ext (by match a with | ⟨0, _⟩ => rfl)
  have e48 : idx_main_v48 (idx_main_v49 (ix2 r n)) = ix1 n :=
    funext fun a => Fin.ext (by match a with | ⟨0, _⟩ => rfl)
  rw [val_main_v50_apply, val_main_v47_apply, val_main_v44_apply, val_main_v39_apply, val_main_v38_apply, e38,
    val_main_v43_apply, e43, val_main_v42_apply, val_main_v41_apply, val_main_v40_apply, val_main_cst_8_apply,
    val_main_v46_apply, val_main_v45_apply, e45, val_main_v49_apply, val_main_v48_apply, e48]
  rfl

/-! ### The kernel's stages against the reference's, at a row of the block -/

/-- The kernel's row mean of a block whose rows are the reference's: the reference's mean at the global row. -/
private theorem kmean_row (X0 : FVec Ideal ⟨2, ![16384, 512]⟩ .f32) (X5 : FVec Ideal ⟨2, ![512, 1536]⟩ .f32)
    (u : FVec Ideal ⟨2, ![512, 1536]⟩ .f32)
    (hu : ∀ (p : Fin 512) (n : Fin 1536), u (ix2 p n) = val_main_v26 (F := Ideal) X0 X5 (ix2 (grow T hT p) n))
    (hr : (⟨2, ![512, 1536]⟩ : Shape).Reduces [1] ⟨1, ![512]⟩) (hφ : FKind.Formats .f32)
    (hacc : (0x00000000#32 : BitVec FTy.f32.bits) = FKind.add.neutral .f32 hφ)
    (hc : (⟨1, ![512]⟩ : Shape).ShapeCasts ⟨2, ![512, 1]⟩) (p : Fin 512) :
    divf (shapeCast ⟨2, ![512, 1]⟩ (multiReduction .add [1] ⟨1, ![512]⟩ u 0x00000000#32 hr hφ hacc) hc)
        (broadcast ⟨2, ![512, 1]⟩ (Scalar.ofBits (F := Ideal) .f32 0x44C00000#32)) (ix2 p (0 : Fin 1))
      = val_main_v30 (F := Ideal) X0 X5 (ix2 (grow T hT p) (0 : Fin 1)) := by
  refine (rowSum_div_apply u _ _ hr hφ hacc hc p).trans ?_
  rw [ref_mean]
  exact congrArg (Ideal.div · _) (Finset.sum_congr rfl fun k _ => hu p k)

/-- The kernel's row variance, formed from a mean column that is the reference's: the reference's variance at the
    global row. -/
private theorem kvar_row (X0 : FVec Ideal ⟨2, ![16384, 512]⟩ .f32) (X5 : FVec Ideal ⟨2, ![512, 1536]⟩ .f32)
    (u : FVec Ideal ⟨2, ![512, 1536]⟩ .f32)
    (hu : ∀ (p : Fin 512) (n : Fin 1536), u (ix2 p n) = val_main_v26 (F := Ideal) X0 X5 (ix2 (grow T hT p) n))
    (m : FVec Ideal ⟨2, ![512, 1]⟩ .f32)
    (hm : ∀ p : Fin 512, m (ix2 p (0 : Fin 1)) = val_main_v30 (F := Ideal) X0 X5 (ix2 (grow T hT p) (0 : Fin 1)))
    (hb : (⟨2, ![512, 1]⟩ : Shape).Broadcasts ⟨2, ![512, 1536]⟩)
    (hr : (⟨2, ![512, 1536]⟩ : Shape).Reduces [1] ⟨1, ![512]⟩) (hφ : FKind.Formats .f32)
    (hacc : (0x00000000#32 : BitVec FTy.f32.bits) = FKind.add.neutral .f32 hφ)
    (hc : (⟨1, ![512]⟩ : Shape).ShapeCasts ⟨2, ![512, 1]⟩) (p : Fin 512) :
    divf (shapeCast ⟨2, ![512, 1]⟩
          (multiReduction .add [1] ⟨1, ![512]⟩
            (mulf (subf u (broadcastTo ⟨2, ![512, 1536]⟩ m hb)) (subf u (broadcastTo ⟨2, ![512, 1536]⟩ m hb)))
            0x00000000#32 hr hφ hacc) hc)
        (broadcast ⟨2, ![512, 1]⟩ (Scalar.ofBits (F := Ideal) .f32 0x44C00000#32)) (ix2 p (0 : Fin 1))
      = val_main_v37 (F := Ideal) X0 X5 (ix2 (grow T hT p) (0 : Fin 1)) := by
  refine (rowSum_div_apply _ _ _ hr hφ hacc hc p).trans ?_
  rw [ref_var]
  refine congrArg (Ideal.div · _) (Finset.sum_congr rfl fun k _ => ?_)
  show (u (ix2 p k) - broadcastTo ⟨2, ![512, 1536]⟩ m hb (ix2 p k)) * (u (ix2 p k) - broadcastTo ⟨2, ![512, 1536]⟩ m hb (ix2 p k)) = _
  rw [broadcastTo_a1_ab_apply m hb p k, hm p, hu p k]

/-- The kernel's normalized row, formed from a mean column and a variance column that are the reference's, with the
    gain and bias rows the reference's: the reference's normalized row at the global row. -/
private theorem knorm_row (X0 : FVec Ideal ⟨2, ![16384, 512]⟩ .f32) (X5 : FVec Ideal ⟨2, ![512, 1536]⟩ .f32)
    (X8 X9 : FVec Ideal ⟨1, ![1536]⟩ .f32) (u : FVec Ideal ⟨2, ![512, 1536]⟩ .f32)
    (hu : ∀ (p : Fin 512) (n : Fin 1536), u (ix2 p n) = val_main_v26 (F := Ideal) X0 X5 (ix2 (grow T hT p) n))
    (m s : FVec Ideal ⟨2, ![512, 1]⟩ .f32)
    (hm : ∀ p : Fin 512, m (ix2 p (0 : Fin 1)) = val_main_v30 (F := Ideal) X0 X5 (ix2 (grow T hT p) (0 : Fin 1)))
    (hs : ∀ p : Fin 512, s (ix2 p (0 : Fin 1)) = val_main_v37 (F := Ideal) X0 X5 (ix2 (grow T hT p) (0 : Fin 1)))
    (g b : FVec Ideal ⟨2, ![1, 1536]⟩ .f32)
    (hg : ∀ n : Fin 1536, g (ix2 (0 : Fin 1) n) = X8 (ix1 n))
    (hbias : ∀ n : Fin 1536, b (ix2 (0 : Fin 1) n) = X9 (ix1 n))
    (hb : (⟨2, ![512, 1]⟩ : Shape).Broadcasts ⟨2, ![512, 1536]⟩)
    (hb1 : (⟨2, ![1, 1536]⟩ : Shape).Broadcasts ⟨2, ![512, 1536]⟩)
    (hc1 : (⟨2, ![1, 1536]⟩ : Shape).ShapeCasts ⟨2, ![1, 1536]⟩) (p : Fin 512) (n : Fin 1536) :
    addf
        (mulf
          (mulf (subf u (broadcastTo ⟨2, ![512, 1536]⟩ m hb))
            (broadcastTo ⟨2, ![512, 1536]⟩
              (rsqrt (addf s (broadcast ⟨2, ![512, 1]⟩ (Scalar.ofBits (F := Ideal) .f32 0x3727C5AC#32)))) hb))
          (broadcastTo ⟨2, ![512, 1536]⟩ (shapeCast ⟨2, ![1, 1536]⟩ g hc1) hb1))
        (broadcastTo ⟨2, ![512, 1536]⟩ (shapeCast ⟨2, ![1, 1536]⟩ b hc1) hb1) (ix2 p n)
      = val_main_v50 (F := Ideal) X0 X5 X8 X9 (ix2 (grow T hT p) n) := by
  rw [ref_norm, shapeCast_self g hc1, shapeCast_self b hc1]
  show (u (ix2 p n) - broadcastTo ⟨2, ![512, 1536]⟩ m hb (ix2 p n))
        * broadcastTo ⟨2, ![512, 1536]⟩
            (rsqrt (addf s (broadcast ⟨2, ![512, 1]⟩ (Scalar.ofBits (F := Ideal) .f32 0x3727C5AC#32)))) hb (ix2 p n)
        * broadcastTo ⟨2, ![512, 1536]⟩ g hb1 (ix2 p n)
      + broadcastTo ⟨2, ![512, 1536]⟩ b hb1 (ix2 p n) = _
  rw [broadcastTo_a1_ab_apply m hb p n, broadcastTo_a1_ab_apply _ hb p n, broadcastTo_1b_ab_apply g hb1 p n,
    broadcastTo_1b_ab_apply b hb1 p n, hm p, hu p n, hg n, hbias n]
  show _ * Ideal.rsqrt (s (ix2 p (0 : Fin 1)) + Ideal.ofBits .f32 0x3727C5AC#32) * _ + _ = _
  rw [hs p]

/-- The normalized hidden-side row of the block is the reference's at the global row. -/
theorem pay9_row (X0 : FVec Ideal ⟨2, ![16384, 512]⟩ .f32) (X5 : FVec Ideal ⟨2, ![512, 1536]⟩ .f32) (X8 X9 : FVec Ideal ⟨1, ![1536]⟩ .f32)
    (v16 : FVec Ideal ⟨2, ![512, 1536]⟩ .f32) (x9 x10 : FVec Ideal ⟨2, ![1, 1536]⟩ .f32)
    (h16 : ∀ (p : Fin 512) (n : Fin 1536), v16 (ix2 p n) = val_main_v26 (F := Ideal) X0 X5 (ix2 (grow T hT p) n))
    (h9 : ∀ n : Fin 1536, x9 (ix2 (0 : Fin 1) n) = X8 (ix1 n))
    (h10 : ∀ n : Fin 1536, x10 (ix2 (0 : Fin 1) n) = X9 (ix1 n))
    (p : Fin 512) (n : Fin 1536) :
    k0_pay9 (F := Ideal) v16 x9 x10 (ix2 p n) = val_main_v50 (F := Ideal) X0 X5 X8 X9 (ix2 (grow T hT p) n) := by
  unfold k0_pay9
  exact knorm_row T hT X0 X5 X8 X9 v16 h16 _ _
    (fun q => kmean_row T hT X0 X5 v16 h16 _ _ _ _ q)
    (fun q => kvar_row T hT X0 X5 v16 h16 _ (fun q' => kmean_row T hT X0 X5 v16 h16 _ _ _ _ q') _ _ _ _ _ q)
    x9 x10 h9 h10 _ _ _ p n

end Cert.Bridge

end
-- ==== Proof.PayGates.lean ====
/-
  The gates of the recurrent cell, read at a row.

  Both programs cut the two normalized rows of 1536 entries into three runs of 512 (reset, update, candidate), form
  the update gate σ(i_z + h_z), the reset gate σ(i_r + h_r), the candidate tanh(i_n + reset · h_n) and the new state
  (1 − update) · candidate + update · h. The kernel's logistic is, at the extended reals, by definition the quotient
  1 / (1 + exp(−x)) that the reference spells out, so each gate of the block's row is the reference's gate at the
  global row.
-/
import proofs.«139835_j6562710028805_1_alg».proof.Proof.Gen.KernelIdeal.Skeleton
import proofs.«139835_j6562710028805_1_alg».proof.Proof.Gen.ReferenceIdeal.Read
import proofs.«139835_j6562710028805_1_alg».proof.Proof.LibRows

noncomputable section

open scoped BigOperators

namespace Cert.Bridge

open Idealize.ShloMosaic Idealize.ShloMosaic.ValueIdx Idealize.ShloMosaic.RowsLib
open Cert.KernelIdeal.Gen Cert.ReferenceIdeal.Read

/-- Column `o + q` of the 1536 columns: entry `q` of the run of 512 columns that starts at `o`. -/
private abbrev col (o : ℕ) (ho : o ≤ 1024) (q : Fin 512) : Fin 1536 := ⟨o + q.val, by have := q.isLt; omega⟩

/-- The word of the float one is, at the extended reals, the number one. -/
private theorem one_word : Ideal.ofBits .f32 0x3F800000#32 = 1 := IdealRules.sign_bit.ideal_onePat .f32

/-- The reference's run 51 reads, at column `q`, column `0 + q` of the 1536. -/
private theorem idx51_ix2 (r : Fin 16384) (q : Fin 512) :
    idx_main_v51 (ix2 r q) = ix2 r (col 0 (by decide) q) :=
  funext fun a => Fin.ext (by
    match a with
    | ⟨0, _⟩ => rfl
    | ⟨1, _⟩ => exact (Nat.zero_add _).symm)

/-- The reference's run 52 reads, at column `q`, column `512 + q` of the 1536. -/
private theorem idx52_ix2 (r : Fin 16384) (q : Fin 512) :
    idx_main_v52 (ix2 r q) = ix2 r (col 512 (by decide) q) :=
  funext fun a => Fin.ext (by
    match a with
    | ⟨0, _⟩ => rfl
    | ⟨1, _⟩ => exact rfl)

/-- The reference's run 53 reads, at column `q`, column `1024 + q` of the 1536. -/
private theorem idx53_ix2 (r : Fin 16384) (q : Fin 512) :
    idx_main_v53 (ix2 r q) = ix2 r (col 1024 (by decide) q) :=
  funext fun a => Fin.ext (by
    match a with
    | ⟨0, _⟩ => rfl
    | ⟨1, _⟩ => exact rfl)

/-- The reference's run 54 reads, at column `q`, column `0 + q` of the 1536. -/
private theorem idx54_ix2 (r : Fin 16384) (q : Fin 512) :
    idx_main_v54 (ix2 r q) = ix2 r (col 0 (by decide) q) :=
  funext fun a => Fin.ext (by
    match a with
    | ⟨0, _⟩ => rfl
    | ⟨1, _⟩ => exact (Nat.zero_add _).symm)

/-- The reference's run 55 reads, at column `q`, column `512 + q` of the 1536. -/
private theorem idx55_ix2 (r : Fin 16384) (q : Fin 512) :
    idx_main_v55 (ix2 r q) = ix2 r (col 512 (by decide) q) :=
  funext fun a => Fin.ext (by
    match a with
    | ⟨0, _⟩ => rfl
    | ⟨1, _⟩ => exact rfl)

/-- The reference's run 56 reads, at column `q`, column `1024 + q` of the 1536. -/
private theorem idx56_ix2 (r : Fin 16384) (q : Fin 512) :
    idx_main_v56 (ix2 r q) = ix2 r (col 1024 (by decide) q) :=
  funext fun a => Fin.ext (by
    match a with
    | ⟨0, _⟩ => rfl
    | ⟨1, _⟩ => exact rfl)

/-- Run 51 of the reference (columns from 0) read at `(r, q)`: the normalized row's entry `(r, 0 + q)`. -/
private theorem v51_at (X1 : FVec Ideal ⟨2, ![16384, 1024]⟩ .f32) (X2 : FVec Ideal ⟨2, ![16384, 6]⟩ .f32) (X4 : FVec Ideal ⟨2, ![1030, 1536]⟩ .f32) (X6 X7 : FVec Ideal ⟨1, ![1536]⟩ .f32) (r : Fin 16384) (q : Fin 512) :
    val_main_v51 (F := Ideal) X1 X2 X4 X6 X7 (ix2 r q) = val_main_v25 (F := Ideal) X1 X2 X4 X6 X7 (ix2 r (col 0 (by decide) q)) :=
  (val_main_v51_apply (F := Ideal) X1 X2 X4 X6 X7 (ix2 r q)).trans (congrArg (val_main_v25 (F := Ideal) X1 X2 X4 X6 X7) (idx51_ix2 r q))

/-- Run 52 of the reference (columns from 512) read at `(r, q)`: the normalized row's entry `(r, 512 + q)`. -/
private theorem v52_at (X1 : FVec Ideal ⟨2, ![16384, 1024]⟩ .f32) (X2 : FVec Ideal ⟨2, ![16384, 6]⟩ .f32) (X4 : FVec Ideal ⟨2, ![1030, 1536]⟩ .f32) (X6 X7 : FVec Ideal ⟨1, ![1536]⟩ .f32) (r : Fin 16384) (q : Fin 512) :
    val_main_v52 (F := Ideal) X1 X2 X4 X6 X7 (ix2 r q) = val_main_v25 (F := Ideal) X1 X2 X4 X6 X7 (ix2 r (col 512 (by decide) q)) :=
  (val_main_v52_apply (F := Ideal) X1 X2 X4 X6 X7 (ix2 r q)).trans (congrArg (val_main_v25 (F := Ideal) X1 X2 X4 X6 X7) (idx52_ix2 r q))

/-- Run 53 of the reference (columns from 1024) read at `(r, q)`: the normalized row's entry `(r, 1024 + q)`. -/
private theorem v53_at (X1 : FVec Ideal ⟨2, ![16384, 1024]⟩ .f32) (X2 : FVec Ideal ⟨2, ![16384, 6]⟩ .f32) (X4 : FVec Ideal ⟨2, ![1030, 1536]⟩ .f32) (X6 X7 : FVec Ideal ⟨1, ![1536]⟩ .f32) (r : Fin 16384) (q : Fin 512) :
    val_main_v53 (F := Ideal) X1 X2 X4 X6 X7 (ix2 r q) = val_main_v25 (F := Ideal) X1 X2 X4 X6 X7 (ix2 r (col 1024 (by decide) q)) :=
  (val_main_v53_apply (F := Ideal) X1 X2 X4 X6 X7 (ix2 r q)).trans (congrArg (val_main_v25 (F := Ideal) X1 X2 X4 X6 X7) (idx53_ix2 r q))

/-- Run 54 of the reference (columns from 0) read at `(r, q)`: the normalized row's entry `(r, 0 + q)`. -/
private theorem v54_at (X0 : FVec Ideal ⟨2, ![16384, 512]⟩ .f32) (X5 : FVec Ideal ⟨2, ![512, 1536]⟩ .f32) (X8 X9 : FVec Ideal ⟨1, ![1536]⟩ .f32) (r : Fin 16384) (q : Fin 512) :
    val_main_v54 (F := Ideal) X0 X5 X8 X9 (ix2 r q) = val_main_v50 (F := Ideal) X0 X5 X8 X9 (ix2 r (col 0 (by decide) q)) :=
  (val_main_v54_apply (F := Ideal) X0 X5 X8 X9 (ix2 r q)).trans (congrArg (val_main_v50 (F := Ideal) X0 X5 X8 X9) (idx54_ix2 r q))

/-- Run 55 of the reference (columns from 512) read at `(r, q)`: the normalized row's entry `(r, 512 + q)`. -/
private theorem v55_at (X0 : FVec Ideal ⟨2, ![16384, 512]⟩ .f32) (X5 : FVec Ideal ⟨2, ![512, 1536]⟩ .f32) (X8 X9 : FVec Ideal ⟨1, ![1536]⟩ .f32) (r : Fin 16384) (q : Fin 512) :
    val_main_v55 (F := Ideal) X0 X5 X8 X9 (ix2 r q) = val_main_v50 (F := Ideal) X0 X5 X8 X9 (ix2 r (col 512 (by decide) q)) :=
  (val_main_v55_apply (F := Ideal) X0 X5 X8 X9 (ix2 r q)).trans (congrArg (val_main_v50 (F := Ideal) X0 X5 X8 X9) (idx55_ix2 r q))

/-- Run 56 of the reference (columns from 1024) read at `(r, q)`: the normalized row's entry `(r, 1024 + q)`. -/
private theorem v56_at (X0 : FVec Ideal ⟨2, ![16384, 512]⟩ .f32) (X5 : FVec Ideal ⟨2, ![512, 1536]⟩ .f32) (X8 X9 : FVec Ideal ⟨1, ![1536]⟩ .f32) (r : Fin 16384) (q : Fin 512) :
    val_main_v56 (F := Ideal) X0 X5 X8 X9 (ix2 r q) = val_main_v50 (F := Ideal) X0 X5 X8 X9 (ix2 r (col 1024 (by decide) q)) :=
  (val_main_v56_apply (F := Ideal) X0 X5 X8 X9 (ix2 r q)).trans (congrArg (val_main_v50 (F := Ideal) X0 X5 X8 X9) (idx56_ix2 r q))

/-- The reference's update gate at `(r, q)`: the quotient `1 / (1 + exp(−(i_z + h_z)))` it spells out is the logistic
    function of the sum of the two rows' entries `(r, 512 + q)`. -/
private theorem ref_update (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32) (r : Fin 16384) (q : Fin 512) :
    val_main_v70 (F := Ideal) X0 X1 X2 X4 X5 X6 X7 X8 X9 (ix2 r q)
      = Ideal.logistic (val_main_v25 (F := Ideal) X1 X2 X4 X6 X7 (ix2 r (col 512 (by decide) q))
          + val_main_v50 (F := Ideal) X0 X5 X8 X9 (ix2 r (col 512 (by decide) q))) := by
  rw [← v52_at, ← v55_at]
  show Ideal.div (Ideal.ofBits .f32 0x3F800000#32) (Ideal.ofBits .f32 0x3F800000#32 + Ideal.exp (-(_ + _))) = Ideal.div 1 (1 + Ideal.exp (-(_ + _)))
  rw [one_word]

/-- The reference's reset gate at `(r, q)`: the logistic function of the sum of the two rows' entries `(r, q)`. -/
private theorem ref_reset (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32) (r : Fin 16384) (q : Fin 512) :
    val_main_v63 (F := Ideal) X0 X1 X2 X4 X5 X6 X7 X8 X9 (ix2 r q)
      = Ideal.logistic (val_main_v25 (F := Ideal) X1 X2 X4 X6 X7 (ix2 r (col 0 (by decide) q))
          + val_main_v50 (F := Ideal) X0 X5 X8 X9 (ix2 r (col 0 (by decide) q))) := by
  rw [← v51_at, ← v54_at]
  show Ideal.div (Ideal.ofBits .f32 0x3F800000#32) (Ideal.ofBits .f32 0x3F800000#32 + Ideal.exp (-(_ + _))) = Ideal.div 1 (1 + Ideal.exp (-(_ + _)))
  rw [one_word]

/-- The reference's candidate at `(r, q)`: `tanh(i_n + reset · h_n)` over the entries `(r, 1024 + q)` and the reset gate. -/
private theorem ref_candidate (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32) (r : Fin 16384) (q : Fin 512) :
    val_main_v73 (F := Ideal) X0 X1 X2 X4 X5 X6 X7 X8 X9 (ix2 r q)
      = Ideal.tanh (val_main_v25 (F := Ideal) X1 X2 X4 X6 X7 (ix2 r (col 1024 (by decide) q))
          + Ideal.logistic (val_main_v25 (F := Ideal) X1 X2 X4 X6 X7 (ix2 r (col 0 (by decide) q))
              + val_main_v50 (F := Ideal) X0 X5 X8 X9 (ix2 r (col 0 (by decide) q)))
            * val_main_v50 (F := Ideal) X0 X5 X8 X9 (ix2 r (col 1024 (by decide) q))) := by
  rw [← v53_at, ← v56_at, ← ref_reset]
  rfl

variable (T : ℕ) (hT : T < 32)

/-- A run of 512 columns of a block's rows, from column `o`, read at `(p, q)`: the entry `(p, o + q)`; and when the
    block's rows are the rows `512·T + p` of a whole array `A`, that is `A`'s entry at the global row. -/
private theorem run_row (o : ℕ) (ho : o ≤ 1024) (a : FVec Ideal ⟨2, ![512, 1536]⟩ .f32) (A : FVec Ideal ⟨2, ![16384, 1536]⟩ .f32)
    (h : (⟨2, ![512, 1536]⟩ : Shape).Slices ![0, o] ⟨2, ![512, 512]⟩)
    (ha : ∀ (p : Fin 512) (n : Fin 1536), a (ix2 p n) = A (ix2 (grow T hT p) n)) (p q : Fin 512) :
    extractStridedSlice ⟨2, ![512, 512]⟩ ![0, o] a h (ix2 p q) = A (ix2 (grow T hT p) (col o ho q)) :=
  (slice2_axis1_eq o a h p q).trans (ha p (col o ho q))

/-- The update gate at block row `p` is the reference's at row `512·T + p`. -/
theorem pay10_row (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32)
    (v16 : FVec Ideal ⟨2, ![512, 1536]⟩ .f32) (v18 v20 : FVec Ideal ⟨2, ![1, 1536]⟩ .f32) (v31 : FVec Ideal ⟨2, ![512, 1]⟩ .f32) (v33 : FVec Ideal ⟨2, ![512, 1536]⟩ .f32) (x9 x10 : FVec Ideal ⟨2, ![1, 1536]⟩ .f32)
    (h42 : ∀ (p : Fin 512) (n : Fin 1536), k0_pay8 (F := Ideal) v18 v20 v31 v33 (ix2 p n) = val_main_v25 (F := Ideal) X1 X2 X4 X6 X7 (ix2 (grow T hT p) n))
    (h68 : ∀ (p : Fin 512) (n : Fin 1536), k0_pay9 (F := Ideal) v16 x9 x10 (ix2 p n) = val_main_v50 (F := Ideal) X0 X5 X8 X9 (ix2 (grow T hT p) n))
    (p q : Fin 512) :
    k0_pay10 (F := Ideal) v16 v18 v20 v31 v33 x9 x10 (ix2 p q) = val_main_v70 (F := Ideal) X0 X1 X2 X4 X5 X6 X7 X8 X9 (ix2 (grow T hT p) q) := by
  unfold k0_pay10
  generalize k0_pay8 (F := Ideal) v18 v20 v31 v33 = a at h42 ⊢
  generalize k0_pay9 (F := Ideal) v16 x9 x10 = b at h68 ⊢
  show Ideal.logistic (extractStridedSlice ⟨2, ![512, 512]⟩ ![0, 512] a _ (ix2 p q) + extractStridedSlice ⟨2, ![512, 512]⟩ ![0, 512] b _ (ix2 p q)) = _
  rw [run_row T hT 512 (by decide) a _ _ h42, run_row T hT 512 (by decide) b _ _ h68, ref_update]

/-- The candidate state at block row `p` is the reference's at row `512·T + p`. -/
theorem pay11_row (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32)
    (v16 : FVec Ideal ⟨2, ![512, 1536]⟩ .f32) (v18 v20 : FVec Ideal ⟨2, ![1, 1536]⟩ .f32) (v31 : FVec Ideal ⟨2, ![512, 1]⟩ .f32) (v33 : FVec Ideal ⟨2, ![512, 1536]⟩ .f32) (x9 x10 : FVec Ideal ⟨2, ![1, 1536]⟩ .f32)
    (h42 : ∀ (p : Fin 512) (n : Fin 1536), k0_pay8 (F := Ideal) v18 v20 v31 v33 (ix2 p n) = val_main_v25 (F := Ideal) X1 X2 X4 X6 X7 (ix2 (grow T hT p) n))
    (h68 : ∀ (p : Fin 512) (n : Fin 1536), k0_pay9 (F := Ideal) v16 x9 x10 (ix2 p n) = val_main_v50 (F := Ideal) X0 X5 X8 X9 (ix2 (grow T hT p) n))
    (p q : Fin 512) :
    k0_pay11 (F := Ideal) v16 v18 v20 v31 v33 x9 x10 (ix2 p q) = val_main_v73 (F := Ideal) X0 X1 X2 X4 X5 X6 X7 X8 X9 (ix2 (grow T hT p) q) := by
  unfold k0_pay11
  generalize k0_pay8 (F := Ideal) v18 v20 v31 v33 = a at h42 ⊢
  generalize k0_pay9 (F := Ideal) v16 x9 x10 = b at h68 ⊢
  show Ideal.tanh (extractStridedSlice ⟨2, ![512, 512]⟩ ![0, 1024] a _ (ix2 p q)
      + Ideal.logistic (extractStridedSlice ⟨2, ![512, 512]⟩ ![0, 0] a _ (ix2 p q) + extractStridedSlice ⟨2, ![512, 512]⟩ ![0, 0] b _ (ix2 p q))
        * extractStridedSlice ⟨2, ![512, 512]⟩ ![0, 1024] b _ (ix2 p q)) = _
  rw [run_row T hT 1024 (by decide) a _ _ h42, run_row T hT 0 (by decide) a _ _ h42, run_row T hT 0 (by decide) b _ _ h68,
    run_row T hT 1024 (by decide) b _ _ h68, ref_candidate]

/-- The new hidden state at block row `p` is the reference's at row `512·T + p`. -/
theorem pay13_row (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32)
    (x0 v78 v81 v82 : FVec Ideal ⟨2, ![512, 512]⟩ .f32)
    (h0 : ∀ (p q : Fin 512), x0 (ix2 p q) = X0 (ix2 (grow T hT p) q))
    (h78 : ∀ (p q : Fin 512), v78 (ix2 p q) = val_main_v70 (F := Ideal) X0 X1 X2 X4 X5 X6 X7 X8 X9 (ix2 (grow T hT p) q))
    (h81 : ∀ (p q : Fin 512), v81 (ix2 p q) = val_main_v73 (F := Ideal) X0 X1 X2 X4 X5 X6 X7 X8 X9 (ix2 (grow T hT p) q))
    (h82 : ∀ (p q : Fin 512), v82 (ix2 p q) = val_main_v74 (F := Ideal) (ix2 (grow T hT p) q))
    (p q : Fin 512) :
    k0_pay13 (F := Ideal) x0 v78 v81 v82 (ix2 p q) = val_main_v78 (F := Ideal) X0 X1 X2 X4 X5 X6 X7 X8 X9 (ix2 (grow T hT p) q) := by
  unfold k0_pay13
  show (v82 (ix2 p q) - v78 (ix2 p q)) * v81 (ix2 p q) + v78 (ix2 p q) * x0 (ix2 p q) = _
  rw [h82, h78, h81, h0]
  rfl

end Cert.Bridge

end
-- ==== Proof.PayHead.lean ====
/-
  The posterior head, read at a row.

  Both programs join the new hidden state and the embedding into a row of 1024 entries, multiply by the first weight
  matrix and add its bias (u), scale u by rsqrt(mean(u²) + ε) and by the scale vector, apply u · σ(u), multiply by the
  second weight matrix and add its bias. The operations and their order are the same; the kernel's logistic is by
  definition the quotient 1 / (1 + exp(−x)) the reference spells out; sums over a row of the block are sums over the
  same row of the whole array.
-/
import proofs.«139835_j6562710028805_1_alg».proof.Proof.Gen.KernelIdeal.Skeleton
import proofs.«139835_j6562710028805_1_alg».proof.Proof.Gen.ReferenceIdeal.Read
import proofs.«139835_j6562710028805_1_alg».proof.Proof.LibRows

noncomputable section

open scoped BigOperators

namespace Cert.Bridge

open Idealize.ShloMosaic Idealize.ShloMosaic.ValueIdx Idealize.ShloMosaic.RowsLib
open Cert.KernelIdeal.Gen Cert.ReferenceIdeal.Read

variable (T : ℕ) (hT : T < 32)

/-- The word 0x3F800000 is the number 1. -/
private theorem ofBits_one_f32 : Ideal.ofBits .f32 0x3F800000#32 = 1 :=
  IdealRules.sign_bit.ideal_onePat .f32

/-- The joined row [h_new | embed] of the block, at row `p` and column `k` of 1024, is the reference's joined row at
    row `512·T + p`: a column below 512 comes from the left piece on both sides, a column from 512 on from the right
    piece at column `k − 512`. -/
private theorem cat_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32)
    (hnew x3 : FVec Ideal ⟨2, ![512, 512]⟩ .f32)
    (hcat : Shape.Concatenates [(⟨2, ![512, 512]⟩ : Shape), ⟨2, ![512, 512]⟩] ⟨2, ![512, 1024]⟩ 1)
    (h86 : ∀ (p q : Fin 512), hnew (ix2 p q) = val_main_v78 (F := Ideal) X0 X1 X2 X4 X5 X6 X7 X8 X9 (ix2 (grow T hT p) q))
    (h3 : ∀ (p q : Fin 512), x3 (ix2 p q) = X3 (ix2 (grow T hT p) q))
    (p : Fin 512) (k : Fin 1024) :
    concatenate ⟨2, ![512, 1024]⟩ 1 [⟨⟨2, ![512, 512]⟩, hnew⟩, ⟨⟨2, ![512, 512]⟩, x3⟩] hcat (ix2 p k)
      = val_main_v79 (F := Ideal) X0 X1 X2 X3 X4 X5 X6 X7 X8 X9 (ix2 (grow T hT p) k) := by
  unfold val_main_v79
  by_cases hk : k.val < 512
  · refine (concatenate_pair_apply_left 1 hnew x3 hcat (ix2 p k) rfl (ix2 p (⟨k.val, hk⟩ : Fin 512))
      (fun b => match b with | ⟨0, _⟩ => rfl | ⟨1, _⟩ => rfl)).trans ?_
    refine (h86 p ⟨k.val, hk⟩).trans ?_
    exact (concatenate_pair_apply_left 1 (val_main_v78 (F := Ideal) X0 X1 X2 X4 X5 X6 X7 X8 X9) X3 _ (ix2 (grow T hT p) k) rfl (ix2 (grow T hT p) (⟨k.val, hk⟩ : Fin 512))
      (fun b => match b with | ⟨0, _⟩ => rfl | ⟨1, _⟩ => rfl)).symm
  · have hk' : k.val - 512 < 512 := by have := k.isLt; omega
    have hsum : k.val - 512 + 512 = k.val := by omega
    refine (concatenate_pair_apply_right 1 hnew x3 hcat (ix2 p k) rfl rfl (ix2 p (⟨k.val - 512, hk'⟩ : Fin 512))
      (fun b => match b with | ⟨0, _⟩ => fun _ => rfl | ⟨1, _⟩ => fun h => (h rfl).elim) hsum).trans ?_
    refine (h3 p ⟨k.val - 512, hk'⟩).trans ?_
    exact (concatenate_pair_apply_right 1 (val_main_v78 (F := Ideal) X0 X1 X2 X4 X5 X6 X7 X8 X9) X3 _ (ix2 (grow T hT p) k) rfl rfl (ix2 (grow T hT p) (⟨k.val - 512, hk'⟩ : Fin 512))
      (fun b => match b with | ⟨0, _⟩ => fun _ => rfl | ⟨1, _⟩ => fun h => (h rfl).elim) hsum).symm

/-- The first product plus its bias row (u): the joined row times the 1024×512 weights, summed over the 1024 joined
    columns, plus the bias at the column; the summands agree term by term. -/
private theorem u_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 : FVec Ideal ⟨1, ![512]⟩ .f32)
    (c : FVec Ideal ⟨2, ![512, 1024]⟩ .f32) (w11 : FVec Ideal ⟨2, ![1024, 512]⟩ .bf16) (x12 : FVec Ideal ⟨2, ![1, 512]⟩ .f32)
    (d : DotDims ⟨2, ![512, 1024]⟩ ⟨2, ![1024, 512]⟩ ⟨2, ![512, 512]⟩) (hd : PlainDot.IsPlain d)
    (hb : FTy.bits .bf16 < FTy.bits .f32)
    (hw : (⟨2, ![1024, 512]⟩ : Shape).ShapeCasts ⟨2, ![1024, 512]⟩)
    (hx : (⟨2, ![1, 512]⟩ : Shape).ShapeCasts ⟨2, ![1, 512]⟩)
    (hbr : (⟨2, ![1, 512]⟩ : Shape).Broadcasts ⟨2, ![512, 512]⟩)
    (hc : ∀ (p : Fin 512) (k : Fin 1024), c (ix2 p k) = val_main_v79 (F := Ideal) X0 X1 X2 X3 X4 X5 X6 X7 X8 X9 (ix2 (grow T hT p) k))
    (h11 : ∀ (k : Fin 1024) (n : Fin 512), w11 (ix2 k n) = X10 (ix2 k n))
    (h12 : ∀ n : Fin 512, x12 (ix2 (0 : Fin 1) n) = X11 (ix1 n))
    (p q : Fin 512) :
    addf (matmul d none (truncf .bf16 c hb) (shapeCast ⟨2, ![1024, 512]⟩ w11 hw) (constant ⟨2, ![512, 512]⟩ .f32 0x00000000#32))
        (broadcastTo ⟨2, ![512, 512]⟩ (shapeCast ⟨2, ![1, 512]⟩ x12 hx) hbr) (ix2 p q)
      = val_main_v83 (F := Ideal) X0 X1 X2 X3 X4 X5 X6 X7 X8 X9 X10 X11 (ix2 (grow T hT p) q) := by
  rw [shapeCast_self, shapeCast_self]
  show FloatOps.matmul d none (truncf .bf16 c hb) w11 (constant ⟨2, ![512, 512]⟩ .f32 0x00000000#32) (ix2 p q)
      + broadcastTo ⟨2, ![512, 512]⟩ x12 hbr (ix2 p q) = _
  rw [PlainDot.matmul_zero_plain d hd, broadcastTo_1b_ab_apply, val_main_v83_apply, val_main_v80_apply,
    val_main_v82_apply, val_main_v81_apply]
  show _ = (∑ k : Fin 1024, _) + _
  have e81 : idx_main_v81 (idx_main_v82 (ix2 (grow T hT p) q)) = ix1 q :=
    funext fun a => Fin.ext (by match a with | ⟨0, _⟩ => rfl)
  rw [e81, ← h12]
  refine congrArg (· + _) (Finset.sum_congr rfl fun k _ => ?_)
  have el : lidx_main_v80 (ix2 (grow T hT p) q) k = ix2 (grow T hT p) k :=
    funext fun a => Fin.ext (by match a with | ⟨0, _⟩ => rfl | ⟨1, _⟩ => rfl)
  have er : ridx_main_v80 (ix2 (grow T hT p) q) k = ix2 k q :=
    funext fun a => Fin.ext (by match a with | ⟨0, _⟩ => rfl | ⟨1, _⟩ => rfl)
  rw [el, er, ← hc, ← h11]
  rfl

/-- The scaling of u: u times rsqrt of (the row's sum of squares over 512.0, plus ε), times the scale at the column.
    The block's row sum is the whole array's row sum (with initial value zero) over the same row. -/
private theorem norm_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 : FVec Ideal ⟨1, ![512]⟩ .f32) (X12 : FVec Ideal ⟨1, ![512]⟩ .f32)
    (u : FVec Ideal ⟨2, ![512, 512]⟩ .f32) (x13 : FVec Ideal ⟨2, ![1, 512]⟩ .f32)
    (hred : (⟨2, ![512, 512]⟩ : Shape).Reduces [1] ⟨1, ![512]⟩) (hφ : FKind.Formats .f32)
    (hacc : (0x00000000#32 : BitVec (FTy.bits .f32)) = FKind.add.neutral .f32 hφ)
    (hsc : (⟨1, ![512]⟩ : Shape).ShapeCasts ⟨2, ![512, 1]⟩)
    (hb1 : (⟨2, ![512, 1]⟩ : Shape).Broadcasts ⟨2, ![512, 512]⟩)
    (hx : (⟨2, ![1, 512]⟩ : Shape).ShapeCasts ⟨2, ![1, 512]⟩)
    (hbr : (⟨2, ![1, 512]⟩ : Shape).Broadcasts ⟨2, ![512, 512]⟩)
    (hu : ∀ (p q : Fin 512), u (ix2 p q) = val_main_v83 (F := Ideal) X0 X1 X2 X3 X4 X5 X6 X7 X8 X9 X10 X11 (ix2 (grow T hT p) q))
    (h13 : ∀ n : Fin 512, x13 (ix2 (0 : Fin 1) n) = X12 (ix1 n))
    (p q : Fin 512) :
    mulf (mulf u (broadcastTo ⟨2, ![512, 512]⟩
          (rsqrt (addf (divf (shapeCast ⟨2, ![512, 1]⟩ (multiReduction .add [1] ⟨1, ![512]⟩ (mulf u u) 0x00000000#32 hred hφ hacc) hsc)
              (broadcast ⟨2, ![512, 1]⟩ (Scalar.ofBits (F := Ideal) .f32 0x44000000#32)))
            (broadcast ⟨2, ![512, 1]⟩ (Scalar.ofBits (F := Ideal) .f32 0x322BCC77#32)))) hb1))
        (broadcastTo ⟨2, ![512, 512]⟩ (shapeCast ⟨2, ![1, 512]⟩ x13 hx) hbr) (ix2 p q)
      = val_main_v96 (F := Ideal) X0 X1 X2 X3 X4 X5 X6 X7 X8 X9 X10 X11 X12 (ix2 (grow T hT p) q) := by
  rw [shapeCast_self]
  -- the reference's row sum of squares at row 512·T + p is the block's at row p
  have e85 : val_main_v85 (F := Ideal) X0 X1 X2 X3 X4 X5 X6 X7 X8 X9 X10 X11 (ix1 (grow T hT p)) = ∑ k : Fin 512, u (ix2 p k) * u (ix2 p k) := by
    rw [val_main_v85_apply, val_main_cst_14_apply]
    show Ideal.ofBits .f32 0x00000000#32 + _ = _
    rw [Ideal.ofBits_zero_f32, zero_add]
    refine Finset.sum_congr rfl fun k _ => ?_
    have ek : idx_main_v85 (ix1 (grow T hT p)) k = ix2 (grow T hT p) k :=
      funext fun a => Fin.ext (by match a with | ⟨0, _⟩ => rfl | ⟨1, _⟩ => rfl)
    rw [ek, val_main_v84_apply, ← hu]
    rfl
  have e86 : idx_main_v86 (idx_main_v92 (ix2 (grow T hT p) q)) = ix1 (grow T hT p) :=
    funext fun a => Fin.ext (by match a with | ⟨0, _⟩ => rfl)
  have e94 : idx_main_v94 (idx_main_v95 (ix2 (grow T hT p) q)) = ix1 q :=
    funext fun a => Fin.ext (by match a with | ⟨0, _⟩ => rfl)
  rw [val_main_v96_apply, val_main_v93_apply, val_main_v95_apply, val_main_v94_apply, val_main_v92_apply,
    val_main_v91_apply, val_main_v90_apply, val_main_v88_apply, val_main_v86_apply, val_main_v87_apply,
    val_main_cst_15_apply, val_main_v89_apply, val_main_cst_16_apply, e86, e85, e94, ← hu, ← h13]
  show u (ix2 p q) * broadcastTo ⟨2, ![512, 512]⟩ _ hb1 (ix2 p q) * broadcastTo ⟨2, ![512, 512]⟩ x13 hbr (ix2 p q) = _
  rw [broadcastTo_a1_ab_apply, broadcastTo_1b_ab_apply]
  show u (ix2 p q) * Ideal.rsqrt (Ideal.div (shapeCast ⟨2, ![512, 1]⟩ _ hsc (ix2 p (0 : Fin 1))) (Ideal.ofBits .f32 0x44000000#32)
      + Ideal.ofBits .f32 0x322BCC77#32) * x13 (ix2 (0 : Fin 1) q) = _
  rw [shapeCast_a_a1_apply, rowSum_apply]
  rfl

/-- u · σ(u): the block's logistic is by definition 1 / (1 + exp(−x)), which the reference spells out with the word
    of the number 1. -/
private theorem silu_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 : FVec Ideal ⟨1, ![512]⟩ .f32) (X12 : FVec Ideal ⟨1, ![512]⟩ .f32)
    (s : FVec Ideal ⟨2, ![512, 512]⟩ .f32)
    (hs : ∀ (p q : Fin 512), s (ix2 p q) = val_main_v96 (F := Ideal) X0 X1 X2 X3 X4 X5 X6 X7 X8 X9 X10 X11 X12 (ix2 (grow T hT p) q))
    (p q : Fin 512) :
    mulf s (logistic s) (ix2 p q) = val_main_v97 (F := Ideal) X0 X1 X2 X3 X4 X5 X6 X7 X8 X9 X10 X11 X12 (ix2 (grow T hT p) q) := by
  rw [val_main_v97_apply, val_main_call0_v5_apply, val_main_call0_v4_apply, val_main_call0_cst_0_apply,
    val_main_call0_v3_apply, val_main_call0_v2_apply, val_main_call0_cst_apply, val_main_call0_v1_apply,
    val_main_call0_v0_apply, ← hs, Ideal.ofBits_def, ofBits_one_f32]
  rfl

/-- The second product plus its bias row: the activated row times the 512×1024 weights, summed over the 512 columns,
    plus the bias at the column. -/
private theorem out_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 : FVec Ideal ⟨1, ![512]⟩ .f32) (X12 : FVec Ideal ⟨1, ![512]⟩ .f32) (X13 : FVec Ideal ⟨2, ![512, 1024]⟩ .f32) (X14 : FVec Ideal ⟨1, ![1024]⟩ .f32)
    (a : FVec Ideal ⟨2, ![512, 512]⟩ .f32) (w14 : FVec Ideal ⟨2, ![512, 1024]⟩ .bf16) (x15 : FVec Ideal ⟨2, ![1, 1024]⟩ .f32)
    (d : DotDims ⟨2, ![512, 512]⟩ ⟨2, ![512, 1024]⟩ ⟨2, ![512, 1024]⟩) (hd : PlainDot.IsPlain d)
    (hb : FTy.bits .bf16 < FTy.bits .f32)
    (hw : (⟨2, ![512, 1024]⟩ : Shape).ShapeCasts ⟨2, ![512, 1024]⟩)
    (hx : (⟨2, ![1, 1024]⟩ : Shape).ShapeCasts ⟨2, ![1, 1024]⟩)
    (hbr : (⟨2, ![1, 1024]⟩ : Shape).Broadcasts ⟨2, ![512, 1024]⟩)
    (ha : ∀ (p j : Fin 512), a (ix2 p j) = val_main_v97 (F := Ideal) X0 X1 X2 X3 X4 X5 X6 X7 X8 X9 X10 X11 X12 (ix2 (grow T hT p) j))
    (h14 : ∀ (k : Fin 512) (n : Fin 1024), w14 (ix2 k n) = X13 (ix2 k n))
    (h15 : ∀ n : Fin 1024, x15 (ix2 (0 : Fin 1) n) = X14 (ix1 n))
    (p : Fin 512) (n : Fin 1024) :
    addf (matmul d none (truncf .bf16 a hb) (shapeCast ⟨2, ![512, 1024]⟩ w14 hw) (constant ⟨2, ![512, 1024]⟩ .f32 0x00000000#32))
        (broadcastTo ⟨2, ![512, 1024]⟩ (shapeCast ⟨2, ![1, 1024]⟩ x15 hx) hbr) (ix2 p n)
      = val_main_v101 (F := Ideal) X0 X1 X2 X3 X4 X5 X6 X7 X8 X9 X10 X11 X12 X13 X14 (ix2 (grow T hT p) n) := by
  rw [shapeCast_self, shapeCast_self]
  show FloatOps.matmul d none (truncf .bf16 a hb) w14 (constant ⟨2, ![512, 1024]⟩ .f32 0x00000000#32) (ix2 p n)
      + broadcastTo ⟨2, ![512, 1024]⟩ x15 hbr (ix2 p n) = _
  rw [PlainDot.matmul_zero_plain d hd, broadcastTo_1b_ab_apply, val_main_v101_apply, val_main_v98_apply,
    val_main_v100_apply, val_main_v99_apply]
  show _ = (∑ k : Fin 512, _) + _
  have e99 : idx_main_v99 (idx_main_v100 (ix2 (grow T hT p) n)) = ix1 n :=
    funext fun b => Fin.ext (by match b with | ⟨0, _⟩ => rfl)
  rw [e99, ← h15]
  refine congrArg (· + _) (Finset.sum_congr rfl fun k _ => ?_)
  have el : lidx_main_v98 (ix2 (grow T hT p) n) k = ix2 (grow T hT p) k :=
    funext fun b => Fin.ext (by match b with | ⟨0, _⟩ => rfl | ⟨1, _⟩ => rfl)
  have er : ridx_main_v98 (ix2 (grow T hT p) n) k = ix2 k n :=
    funext fun b => Fin.ext (by match b with | ⟨0, _⟩ => rfl | ⟨1, _⟩ => rfl)
  rw [el, er, ← ha, ← h14]
  rfl

/-- The logits at block row `p` are the reference's (before its final reshape) at row `512·T + p`. -/
theorem pay14_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 X12 : FVec Ideal ⟨1, ![512]⟩ .f32) (X13 : FVec Ideal ⟨2, ![512, 1024]⟩ .f32) (X14 : FVec Ideal ⟨1, ![1024]⟩ .f32)
    (x0 x3 v78 v81 v82 : FVec Ideal ⟨2, ![512, 512]⟩ .f32) (w11 : FVec Ideal ⟨2, ![1024, 512]⟩ .bf16) (x12 x13 : FVec Ideal ⟨2, ![1, 512]⟩ .f32)
    (w14 : FVec Ideal ⟨2, ![512, 1024]⟩ .bf16) (x15 : FVec Ideal ⟨2, ![1, 1024]⟩ .f32)
    (h86 : ∀ (p q : Fin 512), k0_pay13 (F := Ideal) x0 v78 v81 v82 (ix2 p q) = val_main_v78 (F := Ideal) X0 X1 X2 X4 X5 X6 X7 X8 X9 (ix2 (grow T hT p) q))
    (h3 : ∀ (p q : Fin 512), x3 (ix2 p q) = X3 (ix2 (grow T hT p) q))
    (h11 : ∀ (k : Fin 1024) (n : Fin 512), w11 (ix2 k n) = X10 (ix2 k n))
    (h12 : ∀ n : Fin 512, x12 (ix2 (0 : Fin 1) n) = X11 (ix1 n))
    (h13 : ∀ n : Fin 512, x13 (ix2 (0 : Fin 1) n) = X12 (ix1 n))
    (h14 : ∀ (k : Fin 512) (n : Fin 1024), w14 (ix2 k n) = X13 (ix2 k n))
    (h15 : ∀ n : Fin 1024, x15 (ix2 (0 : Fin 1) n) = X14 (ix1 n))
    (p : Fin 512) (n : Fin 1024) :
    k0_pay14 (F := Ideal) x0 x3 v78 v81 v82 w11 x12 x13 w14 x15 (ix2 p n)
      = val_main_v101 (F := Ideal) X0 X1 X2 X3 X4 X5 X6 X7 X8 X9 X10 X11 X12 X13 X14 (ix2 (grow T hT p) n) := by
  unfold k0_pay14
  generalize k0_pay13 (F := Ideal) x0 v78 v81 v82 = hnew at h86 ⊢
  refine out_row T hT X0 X1 X2 X3 X4 X5 X6 X7 X8 X9 X10 X11 X12 X13 X14 _ w14 x15
    Cert.KernelIdeal.dot_S512x512_S512x1024_S512x1024_1_0_0_1_n_n (isPlain_of_rfl _ rfl rfl rfl rfl rfl rfl) _ _ _ _ ?_ h14 h15 p n
  intro p j
  refine silu_row T hT X0 X1 X2 X3 X4 X5 X6 X7 X8 X9 X10 X11 X12 _ ?_ p j
  intro p q
  refine norm_row T hT X0 X1 X2 X3 X4 X5 X6 X7 X8 X9 X10 X11 X12 _ x13 _ _ _ _ _ _ _ ?_ h13 p q
  intro p q
  refine u_row T hT X0 X1 X2 X3 X4 X5 X6 X7 X8 X9 X10 X11 _ w11 x12
    Cert.KernelIdeal.dot_S512x1024_S1024x512_S512x512_1_0_0_1_n_n (isPlain_of_rfl _ rfl rfl rfl rfl rfl rfl) _ _ _ _ ?_ h11 h12 p q
  intro p k
  exact cat_row T hT X0 X1 X2 X3 X4 X5 X6 X7 X8 X9 hnew x3 _ h86 h3 p k

end Cert.Bridge

end
-- ==== Proof.BlockRows.lean ====
/-
  One grid point's block of each result, read at a row.

  The kernel body's two stored values are compositions of its named pieces: the new hidden state from the two
  matrix products, the two layer normalizations and the gates; the logits from the new hidden state, the embedding
  and the posterior head. Each piece, read at row p of the block, is the reference's stage of the same meaning read
  at row 512·T + p, given the same of its inputs; chaining the pieces from the loaded blocks (each a run of rows of
  an argument array, or a whole weight array) gives the two stored blocks as rows of the reference's two results.
-/
import proofs.«139835_j6562710028805_1_alg».proof.Proof.PayDot
import proofs.«139835_j6562710028805_1_alg».proof.Proof.PayNormIh
import proofs.«139835_j6562710028805_1_alg».proof.Proof.PayNormHh
import proofs.«139835_j6562710028805_1_alg».proof.Proof.PayGates
import proofs.«139835_j6562710028805_1_alg».proof.Proof.PayHead

noncomputable section

open scoped BigOperators

namespace Cert.Bridge

open Idealize.ShloMosaic Idealize.ShloMosaic.ValueIdx Idealize.ShloMosaic.RowsLib
open Cert.KernelIdeal.Gen Cert.ReferenceIdeal.Read

variable (T : ℕ) (hT : T < 32)

/-- The stored block of the new hidden state, at block row `p`, is the reference's new hidden state at row
    `512·T + p`, when each loaded block is the matching run of rows (or the whole) of its argument array. -/
theorem body_h_row (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32)
    (x0 : FVec Ideal ⟨2, ![512, 512]⟩ .f32) (x1 : FVec Ideal ⟨2, ![512, 1024]⟩ .f32) (x2 : FVec Ideal ⟨2, ![512, 6]⟩ .f32) (x3 : FVec Ideal ⟨2, ![512, 512]⟩ .f32)
    (w4 : FVec Ideal ⟨2, ![1024, 1536]⟩ .bf16) (w5 : FVec Ideal ⟨2, ![6, 1536]⟩ .bf16) (w6 : FVec Ideal ⟨2, ![512, 1536]⟩ .bf16)
    (x7 x8 x9 x10 : FVec Ideal ⟨2, ![1, 1536]⟩ .f32) (w11 : FVec Ideal ⟨2, ![1024, 512]⟩ .bf16) (x12 x13 : FVec Ideal ⟨2, ![1, 512]⟩ .f32)
    (w14 : FVec Ideal ⟨2, ![512, 1024]⟩ .bf16) (x15 : FVec Ideal ⟨2, ![1, 1024]⟩ .f32)
    (h0 : ∀ (p q : Fin 512), x0 (ix2 p q) = X0 (ix2 (grow T hT p) q))
    (h1 : ∀ (p : Fin 512) (k : Fin 1024), x1 (ix2 p k) = X1 (ix2 (grow T hT p) k))
    (h2 : ∀ (p : Fin 512) (k : Fin 6), x2 (ix2 p k) = X2 (ix2 (grow T hT p) k))
    (h4 : ∀ (k : Fin 1024) (n : Fin 1536), w4 (ix2 k n) = X4 (ix2 (wtop k) n))
    (h5 : ∀ (k : Fin 6) (n : Fin 1536), w5 (ix2 k n) = X4 (ix2 (wbot k) n))
    (h6 : ∀ (k : Fin 512) (n : Fin 1536), w6 (ix2 k n) = X5 (ix2 k n))
    (h7 : ∀ n : Fin 1536, x7 (ix2 (0 : Fin 1) n) = X6 (ix1 n))
    (h8 : ∀ n : Fin 1536, x8 (ix2 (0 : Fin 1) n) = X7 (ix1 n))
    (h9 : ∀ n : Fin 1536, x9 (ix2 (0 : Fin 1) n) = X8 (ix1 n))
    (h10 : ∀ n : Fin 1536, x10 (ix2 (0 : Fin 1) n) = X9 (ix1 n))
    (p q : Fin 512) :
    k0_pay13 (F := Ideal) x0 (k0_pay10 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10)
        (k0_pay11 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10) (k0_pay12 (F := Ideal)) (ix2 p q)
      = val_main_v78 (F := Ideal) X0 X1 X2 X4 X5 X6 X7 X8 X9 (ix2 (grow T hT p) q) := by
  have e15 := pay1_row T hT X1 X2 X4 x1 x2 w4 w5 h1 h2 h4 h5
  have e16 := pay2_row T hT X0 X5 x0 w6 h0 h6
  have e18 := pay3_row X6 x7 h7
  have e20 := pay4_row X7 x8 h8
  have e31 := pay6_row T hT X1 X2 X4 x1 x2 w4 w5 e15
  have e33 := pay7_row T hT X1 X2 X4 x1 x2 w4 w5 e15
  have e42 := pay8_row T hT X1 X2 X4 X6 X7 (k0_pay3 (F := Ideal) x7) (k0_pay4 (F := Ideal) x8)
    (k0_pay6 (F := Ideal) x1 x2 w4 w5) (k0_pay7 (F := Ideal) x1 x2 w4 w5) e18 e20 e31 e33
  have e68 := pay9_row T hT X0 X5 X8 X9 (k0_pay2 (F := Ideal) x0 w6) x9 x10 e16 h9 h10
  have e78 := pay10_row T hT X0 X1 X2 X4 X5 X6 X7 X8 X9 (k0_pay2 (F := Ideal) x0 w6) (k0_pay3 (F := Ideal) x7)
    (k0_pay4 (F := Ideal) x8) (k0_pay6 (F := Ideal) x1 x2 w4 w5) (k0_pay7 (F := Ideal) x1 x2 w4 w5) x9 x10 e42 e68
  have e81 := pay11_row T hT X0 X1 X2 X4 X5 X6 X7 X8 X9 (k0_pay2 (F := Ideal) x0 w6) (k0_pay3 (F := Ideal) x7)
    (k0_pay4 (F := Ideal) x8) (k0_pay6 (F := Ideal) x1 x2 w4 w5) (k0_pay7 (F := Ideal) x1 x2 w4 w5) x9 x10 e42 e68
  have e82 := pay12_row T hT
  exact pay13_row T hT X0 X1 X2 X4 X5 X6 X7 X8 X9 x0 _ _ _ h0 e78 e81 e82 p q

/-- The stored block of the logits, at block row `p`, is the reference's logits (before the final reshape) at row
    `512·T + p`. -/
theorem body_logits_row (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 X12 : FVec Ideal ⟨1, ![512]⟩ .f32) (X13 : FVec Ideal ⟨2, ![512, 1024]⟩ .f32) (X14 : FVec Ideal ⟨1, ![1024]⟩ .f32)
    (x0 : FVec Ideal ⟨2, ![512, 512]⟩ .f32) (x1 : FVec Ideal ⟨2, ![512, 1024]⟩ .f32) (x2 : FVec Ideal ⟨2, ![512, 6]⟩ .f32) (x3 : FVec Ideal ⟨2, ![512, 512]⟩ .f32)
    (w4 : FVec Ideal ⟨2, ![1024, 1536]⟩ .bf16) (w5 : FVec Ideal ⟨2, ![6, 1536]⟩ .bf16) (w6 : FVec Ideal ⟨2, ![512, 1536]⟩ .bf16)
    (x7 x8 x9 x10 : FVec Ideal ⟨2, ![1, 1536]⟩ .f32) (w11 : FVec Ideal ⟨2, ![1024, 512]⟩ .bf16) (x12 x13 : FVec Ideal ⟨2, ![1, 512]⟩ .f32)
    (w14 : FVec Ideal ⟨2, ![512, 1024]⟩ .bf16) (x15 : FVec Ideal ⟨2, ![1, 1024]⟩ .f32)
    (h0 : ∀ (p q : Fin 512), x0 (ix2 p q) = X0 (ix2 (grow T hT p) q))
    (h1 : ∀ (p : Fin 512) (k : Fin 1024), x1 (ix2 p k) = X1 (ix2 (grow T hT p) k))
    (h2 : ∀ (p : Fin 512) (k : Fin 6), x2 (ix2 p k) = X2 (ix2 (grow T hT p) k))
    (h4 : ∀ (k : Fin 1024) (n : Fin 1536), w4 (ix2 k n) = X4 (ix2 (wtop k) n))
    (h5 : ∀ (k : Fin 6) (n : Fin 1536), w5 (ix2 k n) = X4 (ix2 (wbot k) n))
    (h6 : ∀ (k : Fin 512) (n : Fin 1536), w6 (ix2 k n) = X5 (ix2 k n))
    (h7 : ∀ n : Fin 1536, x7 (ix2 (0 : Fin 1) n) = X6 (ix1 n))
    (h8 : ∀ n : Fin 1536, x8 (ix2 (0 : Fin 1) n) = X7 (ix1 n))
    (h9 : ∀ n : Fin 1536, x9 (ix2 (0 : Fin 1) n) = X8 (ix1 n))
    (h10 : ∀ n : Fin 1536, x10 (ix2 (0 : Fin 1) n) = X9 (ix1 n))
    (h3 : ∀ (p q : Fin 512), x3 (ix2 p q) = X3 (ix2 (grow T hT p) q))
    (h11 : ∀ (k : Fin 1024) (n : Fin 512), w11 (ix2 k n) = X10 (ix2 k n))
    (h12 : ∀ n : Fin 512, x12 (ix2 (0 : Fin 1) n) = X11 (ix1 n))
    (h13 : ∀ n : Fin 512, x13 (ix2 (0 : Fin 1) n) = X12 (ix1 n))
    (h14 : ∀ (k : Fin 512) (n : Fin 1024), w14 (ix2 k n) = X13 (ix2 k n))
    (h15 : ∀ n : Fin 1024, x15 (ix2 (0 : Fin 1) n) = X14 (ix1 n))
    (p : Fin 512) (n : Fin 1024) :
    k0_pay14 (F := Ideal) x0 x3 (k0_pay10 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10)
        (k0_pay11 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10) (k0_pay12 (F := Ideal)) w11 x12 x13 w14 x15 (ix2 p n)
      = val_main_v101 (F := Ideal) X0 X1 X2 X3 X4 X5 X6 X7 X8 X9 X10 X11 X12 X13 X14 (ix2 (grow T hT p) n) := by
  have e86 := body_h_row T hT X0 X1 X2 X4 X5 X6 X7 X8 X9 x0 x1 x2 x3 w4 w5 w6 x7 x8 x9 x10 w11 x12 x13 w14 x15
    h0 h1 h2 h4 h5 h6 h7 h8 h9 h10
  exact pay14_row T hT X0 X1 X2 X3 X4 X5 X6 X7 X8 X9 X10 X11 X12 X13 X14 x0 x3 _ _ _ w11 x12 x13 w14 x15 e86 h3 h11 h12 h13 h14 h15 p n

end Cert.Bridge

end
-- ==== Proof.KernelRun.lean ====
/-
  The kernel's run, read: after it the array of the new hidden state holds the reference's new hidden state of the
  argument arrays, and the reshaped logits hold the reference's reshaped logits.

  At grid point t the body stores, into the two output blocks, values that at block row p are the reference's
  results at row 512·t + p (each piece of the body read at a row); that is block t of the reference's result read
  through the output window. The 32 blocks tile the 16384 rows, so each result array ends holding the reference's
  result; the line after the region reshapes the logits exactly as the reference's last line does.
-/
import proofs.«139835_j6562710028805_1_alg».proof.Proof.KernelBlocks
import proofs.«139835_j6562710028805_1_alg».proof.Proof.BlockRows

set_option maxRecDepth 16384

noncomputable section

open Idealize.ShloMosaic Idealize.ShloMosaic.TcCoe Idealize.SL.Sem
open Idealize.ShloMosaic.Pipeline (Dat)

namespace Cert.Bridge

open Idealize.ShloMosaic.ValueIdx Idealize.ShloMosaic.RowsLib
open Cert.KernelIdeal.Gen Cert.ReferenceIdeal.Read

variable (T : ℕ) (hT : T < 32)

/-- The stored block of the new hidden state at any index of the block. -/
theorem body_h_at (X0 : FVec Ideal ⟨2, ![16384, 512]⟩ .f32) (X1 : FVec Ideal ⟨2, ![16384, 1024]⟩ .f32) (X2 : FVec Ideal ⟨2, ![16384, 6]⟩ .f32) (X4 : FVec Ideal ⟨2, ![1030, 1536]⟩ .f32) (X5 : FVec Ideal ⟨2, ![512, 1536]⟩ .f32) (X6 X7 X8 X9 : FVec Ideal ⟨1, ![1536]⟩ .f32)
    (x0 : FVec Ideal ⟨2, ![512, 512]⟩ .f32) (x1 : FVec Ideal ⟨2, ![512, 1024]⟩ .f32) (x2 : FVec Ideal ⟨2, ![512, 6]⟩ .f32) (x3 : FVec Ideal ⟨2, ![512, 512]⟩ .f32)
    (w4 : FVec Ideal ⟨2, ![1024, 1536]⟩ .bf16) (w5 : FVec Ideal ⟨2, ![6, 1536]⟩ .bf16) (w6 : FVec Ideal ⟨2, ![512, 1536]⟩ .bf16)
    (x7 x8 x9 x10 : FVec Ideal ⟨2, ![1, 1536]⟩ .f32) (w11 : FVec Ideal ⟨2, ![1024, 512]⟩ .bf16) (x12 x13 : FVec Ideal ⟨2, ![1, 512]⟩ .f32)
    (w14 : FVec Ideal ⟨2, ![512, 1024]⟩ .bf16) (x15 : FVec Ideal ⟨2, ![1, 1024]⟩ .f32)
    (h0 : ∀ (p q : Fin 512), x0 (ix2 p q) = X0 (ix2 (grow T hT p) q))
    (h1 : ∀ (p : Fin 512) (k : Fin 1024), x1 (ix2 p k) = X1 (ix2 (grow T hT p) k))
    (h2 : ∀ (p : Fin 512) (k : Fin 6), x2 (ix2 p k) = X2 (ix2 (grow T hT p) k))
    (h4 : ∀ (k : Fin 1024) (n : Fin 1536), w4 (ix2 k n) = X4 (ix2 (wtop k) n))
    (h5 : ∀ (k : Fin 6) (n : Fin 1536), w5 (ix2 k n) = X4 (ix2 (wbot k) n))
    (h6 : ∀ (k : Fin 512) (n : Fin 1536), w6 (ix2 k n) = X5 (ix2 k n))
    (h7 : ∀ n : Fin 1536, x7 (ix2 (0 : Fin 1) n) = X6 (ix1 n))
    (h8 : ∀ n : Fin 1536, x8 (ix2 (0 : Fin 1) n) = X7 (ix1 n))
    (h9 : ∀ n : Fin 1536, x9 (ix2 (0 : Fin 1) n) = X8 (ix1 n))
    (h10 : ∀ n : Fin 1536, x10 (ix2 (0 : Fin 1) n) = X9 (ix1 n))
    (y : (⟨2, ![512, 512]⟩ : Shape).Idx) :
    k0_pay13 (F := Ideal) x0 (k0_pay10 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10)
        (k0_pay11 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10) (k0_pay12 (F := Ideal)) y
      = val_main_v78 (F := Ideal) X0 X1 X2 X4 X5 X6 X7 X8 X9 (ix2 (grow T hT (y 0)) (y 1)) := by
  have h := body_h_row T hT X0 X1 X2 X4 X5 X6 X7 X8 X9 x0 x1 x2 x3 w4 w5 w6 x7 x8 x9 x10 w11 x12 x13 w14 x15
    h0 h1 h2 h4 h5 h6 h7 h8 h9 h10 (y 0) (y 1)
  exact (congrArg _ (eq_ix2 y)).trans h

/-- The stored block of the logits at any index of the block. -/
theorem body_logits_at (X0 : FVec Ideal ⟨2, ![16384, 512]⟩ .f32) (X1 : FVec Ideal ⟨2, ![16384, 1024]⟩ .f32) (X2 : FVec Ideal ⟨2, ![16384, 6]⟩ .f32) (X3 : FVec Ideal ⟨2, ![16384, 512]⟩ .f32) (X4 : FVec Ideal ⟨2, ![1030, 1536]⟩ .f32) (X5 : FVec Ideal ⟨2, ![512, 1536]⟩ .f32) (X6 X7 X8 X9 : FVec Ideal ⟨1, ![1536]⟩ .f32) (X10 : FVec Ideal ⟨2, ![1024, 512]⟩ .f32) (X11 X12 : FVec Ideal ⟨1, ![512]⟩ .f32) (X13 : FVec Ideal ⟨2, ![512, 1024]⟩ .f32) (X14 : FVec Ideal ⟨1, ![1024]⟩ .f32)
    (x0 : FVec Ideal ⟨2, ![512, 512]⟩ .f32) (x1 : FVec Ideal ⟨2, ![512, 1024]⟩ .f32) (x2 : FVec Ideal ⟨2, ![512, 6]⟩ .f32) (x3 : FVec Ideal ⟨2, ![512, 512]⟩ .f32)
    (w4 : FVec Ideal ⟨2, ![1024, 1536]⟩ .bf16) (w5 : FVec Ideal ⟨2, ![6, 1536]⟩ .bf16) (w6 : FVec Ideal ⟨2, ![512, 1536]⟩ .bf16)
    (x7 x8 x9 x10 : FVec Ideal ⟨2, ![1, 1536]⟩ .f32) (w11 : FVec Ideal ⟨2, ![1024, 512]⟩ .bf16) (x12 x13 : FVec Ideal ⟨2, ![1, 512]⟩ .f32)
    (w14 : FVec Ideal ⟨2, ![512, 1024]⟩ .bf16) (x15 : FVec Ideal ⟨2, ![1, 1024]⟩ .f32)
    (h0 : ∀ (p q : Fin 512), x0 (ix2 p q) = X0 (ix2 (grow T hT p) q))
    (h1 : ∀ (p : Fin 512) (k : Fin 1024), x1 (ix2 p k) = X1 (ix2 (grow T hT p) k))
    (h2 : ∀ (p : Fin 512) (k : Fin 6), x2 (ix2 p k) = X2 (ix2 (grow T hT p) k))
    (h4 : ∀ (k : Fin 1024) (n : Fin 1536), w4 (ix2 k n) = X4 (ix2 (wtop k) n))
    (h5 : ∀ (k : Fin 6) (n : Fin 1536), w5 (ix2 k n) = X4 (ix2 (wbot k) n))
    (h6 : ∀ (k : Fin 512) (n : Fin 1536), w6 (ix2 k n) = X5 (ix2 k n))
    (h7 : ∀ n : Fin 1536, x7 (ix2 (0 : Fin 1) n) = X6 (ix1 n))
    (h8 : ∀ n : Fin 1536, x8 (ix2 (0 : Fin 1) n) = X7 (ix1 n))
    (h9 : ∀ n : Fin 1536, x9 (ix2 (0 : Fin 1) n) = X8 (ix1 n))
    (h10 : ∀ n : Fin 1536, x10 (ix2 (0 : Fin 1) n) = X9 (ix1 n))
    (h3 : ∀ (p q : Fin 512), x3 (ix2 p q) = X3 (ix2 (grow T hT p) q))
    (h11 : ∀ (k : Fin 1024) (n : Fin 512), w11 (ix2 k n) = X10 (ix2 k n))
    (h12 : ∀ n : Fin 512, x12 (ix2 (0 : Fin 1) n) = X11 (ix1 n))
    (h13 : ∀ n : Fin 512, x13 (ix2 (0 : Fin 1) n) = X12 (ix1 n))
    (h14 : ∀ (k : Fin 512) (n : Fin 1024), w14 (ix2 k n) = X13 (ix2 k n))
    (h15 : ∀ n : Fin 1024, x15 (ix2 (0 : Fin 1) n) = X14 (ix1 n))
    (y : (⟨2, ![512, 1024]⟩ : Shape).Idx) :
    k0_pay14 (F := Ideal) x0 x3 (k0_pay10 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10)
        (k0_pay11 (F := Ideal) (k0_pay2 (F := Ideal) x0 w6) (k0_pay3 (F := Ideal) x7) (k0_pay4 (F := Ideal) x8) (k0_pay6 (F := Ideal) x1 x2 w4 w5) (k0_pay7 (F := Ideal) x1 x2 w4 w5) x9 x10) (k0_pay12 (F := Ideal)) w11 x12 x13 w14 x15 y
      = val_main_v101 (F := Ideal) X0 X1 X2 X3 X4 X5 X6 X7 X8 X9 X10 X11 X12 X13 X14 (ix2 (grow T hT (y 0)) (y 1)) := by
  have h := body_logits_row T hT X0 X1 X2 X3 X4 X5 X6 X7 X8 X9 X10 X11 X12 X13 X14 x0 x1 x2 x3 w4 w5 w6 x7 x8 x9 x10 w11 x12 x13 w14 x15
    h0 h1 h2 h4 h5 h6 h7 h8 h9 h10 h3 h11 h12 h13 h14 h15 (y 0) (y 1)
  exact (congrArg _ (eq_ix2 y)).trans h

end Cert.Bridge

namespace Cert.KernelIdeal.RowRun

open Cert.KernelIdeal Cert.KernelIdeal.Gen Cert.KernelIdeal.Blocks
open Idealize.ShloMosaic.ValueIdx Idealize.ShloMosaic.RowsLib

variable (m : (ℓ : Loc nD τ sig) → Buf (Elt Ideal) ℓ) (ρ : Dev nD → PrngReg)

/-- The reference's new hidden state, as a function of the kernel's argument arrays. -/
abbrev newH (c : Dev nD) : S16384x512.Idx → Ideal .f32 :=
  Cert.ReferenceIdeal.Read.val_main_v78 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The reference's logits before its last reshape, as a function of the kernel's argument arrays. -/
abbrev flatLogits (c : Dev nD) : S16384x1024.Idx → Ideal .f32 :=
  Cert.ReferenceIdeal.Read.val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- The reference's logits, reshaped to 32 × 32 classes a row. -/
abbrev logits (c : Dev nD) : S16384x32x32.Idx → Ideal .f32 :=
  Cert.ReferenceIdeal.Read.val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What point `t` writes back of the new hidden state is block `t` of the reference's. -/
theorem flushed16_eq (c : Dev nD) (t : Fin cfg0.N) :
    (dats m 0 c).flushed 16 t = ((cfg0.win 16).blk t).view.read (Elt Ideal) (newH m c) := by
  show (cfg0.win 16).cut (grid0.coords t) ((dats m 0 c).after 16 t) = _
  rw [after0_16]
  unfold out0_16
  rw [View.canon_unit_zero hz]
  simp only [View.ld_unit_zero (S := S512x512) hz, View.ld_unit_zero (S := S512x1024) hz, View.ld_unit_zero (S := S512x6) hz, View.ld_unit_zero (S := S1024x1536) hz, View.ld_unit_zero (S := S6x1536) hz, View.ld_unit_zero (S := S512x1536) hz, View.ld_unit_zero (S := S1x1536) hz, View.ld_unit_zero (S := S1024x512) hz, View.ld_unit_zero (S := S1x512) hz, View.ld_unit_zero (S := S1x1024) hz]
  funext y
  refine (Cert.Bridge.body_h_at t.val (lt32 t) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (blk0 m c t) (blk1 m c t) (blk2 m c t) (blk4 m c t) (blk5 m c t) (blk6 m c t) (blk7 m c t) (blk8 m c t) (blk9 m c t) (blk10 m c t) y).trans ?_
  rw [View.read_apply, emb16]
  rfl

/-- What point `t` writes back of the logits is block `t` of the reference's. -/
theorem flushed17_eq (c : Dev nD) (t : Fin cfg0.N) :
    (dats m 0 c).flushed 17 t = ((cfg0.win 17).blk t).view.read (Elt Ideal) (flatLogits m c) := by
  show (cfg0.win 17).cut (grid0.coords t) ((dats m 0 c).after 17 t) = _
  rw [after0_17]
  unfold out0_17
  rw [View.canon_unit_zero hz]
  simp only [View.ld_unit_zero (S := S512x512) hz, View.ld_unit_zero (S := S512x1024) hz, View.ld_unit_zero (S := S512x6) hz, View.ld_unit_zero (S := S1024x1536) hz, View.ld_unit_zero (S := S6x1536) hz, View.ld_unit_zero (S := S512x1536) hz, View.ld_unit_zero (S := S1x1536) hz, View.ld_unit_zero (S := S1024x512) hz, View.ld_unit_zero (S := S1x512) hz, View.ld_unit_zero (S := S1x1024) hz]
  funext y
  refine (Cert.Bridge.body_logits_at t.val (lt32 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    (blk0 m c t) (blk1 m c t) (blk2 m c t) (blk4 m c t) (blk5 m c t) (blk6 m c t) (blk7 m c t) (blk8 m c t) (blk9 m c t) (blk10 m c t) (blk3 m c t) (blk11 m c t) (blk12 m c t) (blk13 m c t) (blk14 m c t) (blk15 m c t) y).trans ?_
  rw [View.read_apply, emb17]
  rfl

/-- The array of the new hidden state after the run. -/
theorem final16 (c : Dev nD) : (dats m 0 c).arrAt 16 cfg0.N = newH m c :=
  (dats m 0 c).arrAt_eq_of_cover 16 (newH m c) (fun t _ => flushed16_eq m c t) cover16

/-- The array of the logits after the region. -/
theorem final17 (c : Dev nD) : (dats m 0 c).arrAt 17 cfg0.N = flatLogits m c :=
  (dats m 0 c).arrAt_eq_of_cover 17 (flatLogits m c) (fun t _ => flushed17_eq m c t) cover17

/-- The line after the region reshapes the logits as the reference's last line does. -/
theorem tail15 (c : Dev nD) :
    Pipeline.afterTail₀ cfgs (dats m) 0 (V0 m) [hostOps1] c main_v15 = logits m c := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14_1)
      = flatLogits m c :=
    (Pipeline.withArrays_arr spec0 launch0.win.arr_inj c _ _ 17).trans (final17 m c)
  rw [e]
  rfl

/-- The run, read: both results at the reference's functions of the arguments, the arguments unchanged. -/
theorem run : θ_run defs (onTc (τ := τ) (main (F := Ideal))) ⟨m, fun _ => 0, ρ⟩ fun r => ∀ c : Dev nD,
      r.2.mem ((c.tc : Thread nD τ).loc main_v14_0) = newH m c
      ∧ r.2.mem ((c.tc : Thread nD τ).loc main_v15) = logits m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 16).trans (final16 m c),
      ((h c).2 main_v15 (Pipeline.mem_restRefs_of main_v15 (by decide) (by decide))).trans (tail15 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c))⟩) (run_main m ρ)

end Cert.KernelIdeal.RowRun

end
-- ==== Proof.lean ====
/-
  The certificate: the fused recurrent-state-space step (a layer-normalized GRU cell followed by a small posterior
  head), computed by one kernel over 32 blocks of 512 rows, against the same step written with whole-array operations.

  Over the extended reals the two programs compute one function. Every operation of the step acts on each of the 16384
  rows separately, so the kernel's block of rows 512·t … 512·t + 511 holds, after the body, those rows of the
  reference's results. The only place where the two programs group a sum differently is the first matrix product:
  the kernel adds z·W[:1024] and action·W[1024:], the reference multiplies the joined rows [z | action] by W; a sum of
  1030 terms is the sum of its first 1024 and its last 6 terms. A narrowing to bf16 is the identity over the extended
  reals, and the kernel's logistic is by definition the quotient 1 / (1 + exp(−x)) that the reference spells out. No
  step uses that the inputs are finite.

  The three frames are the generated ones (the reference's is its generated run with the results dropped); the
  kernel's idealization rewrote nothing, so it is preserved trivially.
-/
import proofs.«139835_j6562710028805_1_alg».proof.Defs
import proofs.«139835_j6562710028805_1_alg».proof.Proof.Gen.Kernel
import proofs.«139835_j6562710028805_1_alg».proof.Proof.Gen.Kernel.Skeleton
import proofs.«139835_j6562710028805_1_alg».proof.Proof.Gen.Kernel.Launch
import proofs.«139835_j6562710028805_1_alg».proof.Proof.Gen.Kernel.Points
import proofs.«139835_j6562710028805_1_alg».proof.Proof.Gen.Kernel.Frame
import proofs.«139835_j6562710028805_1_alg».proof.Proof.Gen.KernelIdeal
import proofs.«139835_j6562710028805_1_alg».proof.Proof.Gen.KernelIdeal.Skeleton
import proofs.«139835_j6562710028805_1_alg».proof.Proof.Gen.KernelIdeal.Launch
import proofs.«139835_j6562710028805_1_alg».proof.Proof.Gen.KernelIdeal.Points
import proofs.«139835_j6562710028805_1_alg».proof.Proof.Gen.KernelIdeal.Frame
import proofs.«139835_j6562710028805_1_alg».proof.Proof.Gen.ReferenceIdeal
import proofs.«139835_j6562710028805_1_alg».proof.Proof.Gen.Pre_finite_inputs
import proofs.«139835_j6562710028805_1_alg».proof.Proof.Gen.ReferenceIdeal.Run
import proofs.«139835_j6562710028805_1_alg».proof.Proof.Gen.ReferenceIdeal.Read
import proofs.«139835_j6562710028805_1_alg».proof.Proof.KernelRun
import Idealize.ShloMosaic.Adequacy
import Idealize.ShloMosaic.Init

noncomputable section

namespace Cert.Proof

open Idealize.ShloMosaic Idealize.SL.Sem

/-- The kernel at the word level runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Over the extended reals, from memories that agree on the arguments, the kernel's two results are the reference's:
    the new hidden state and the logits of the argument arrays. -/
theorem algebraic : Cert.algebraic_KernelIdeal_ReferenceIdeal := by
  intro m ρ m' ρ' _ hagree
  refine ⟨fun c => Cert.KernelIdeal.RowRun.newH m c, fun c => Cert.KernelIdeal.RowRun.logits m c,
    Cert.KernelIdeal.RowRun.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨(h c).1.trans ?_, (h c).2.1.trans ?_, (h c).2.2⟩
  · rw [Cert.ReferenceIdeal.Read.val_main_v78_eq, a0, a1, a2, a4, a5, a6, a7, a8, a9]
  · rw [Cert.ReferenceIdeal.Read.val_main_v102_eq, a0, a1, a2, a3, a4, a5, a6, a7, a8, a9, a10, a11, a12, a13, a14]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
